-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x21x1024x1024 : Shape := ⟨4, ![1, 21, 1024, 1024]⟩
abbrev S1x1x1024x1024 : Shape := ⟨4, ![1, 1, 1024, 1024]⟩
abbrev S_ : Shape := ⟨0, ![]⟩

class Facts : Prop where
  bcast_S_S1x21x1024x1024 : S_.BroadcastsInDim S1x21x1024x1024 (![] : Fin 0 → Fin S1x21x1024x1024.rank)
  reducesTo_S1x21x1024x1024_S_d0_1_2_3 : S1x21x1024x1024.ReducesTo [0, 1, 2, 3] S_
  h_S_ : 0 < S_.numel

variable [Facts]

def fn {F : FTy → Type} [FloatOps F] (main_arg0 : FVec F S1x21x1024x1024 .f32) (main_arg1 : IVec S1x1x1024x1024 32) : IVec S_ 1 :=
  let main_v0 : FVec F S1x21x1024x1024 .f32 := Host.absf main_arg0
  let main_cst : FVec F S_ .f32 := constant S_ .f32 0x7F800000#32
  let main_v1 : FVec F S1x21x1024x1024 .f32 := broadcastInDim S1x21x1024x1024 ![] bcast_S_S1x21x1024x1024 main_cst
  let main_v2 : IVec S1x21x1024x1024 1 := cmpf .olt main_v0 main_v1
  let main_c : IVec S_ 1 := constantI S_ 1 1#1
  let main_v3 : IVec S_ 1 := (fun x v => Host.reduce IntOp.andi x v reducesTo_S1x21x1024x1024_S_d0_1_2_3 h_S_) main_v2 main_c
  main_v3
-- ==== Kernel.lean ====
abbrev S1x21x1024x1024 : Shape := ⟨4, ![1, 21, 1024, 1024]⟩
abbrev S1x1x1024x1024 : Shape := ⟨4, ![1, 1, 1024, 1024]⟩
abbrev S1x1024 : Shape := ⟨2, ![1, 1024]⟩
abbrev S1x21x256x512 : Shape := ⟨4, ![1, 21, 256, 512]⟩
abbrev S1x1x256x512 : Shape := ⟨4, ![1, 1, 256, 512]⟩
abbrev S1x512 : Shape := ⟨2, ![1, 512]⟩
abbrev S256x512 : Shape := ⟨2, ![256, 512]⟩
abbrev S512 : Shape := ⟨1, ![512]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S1x21x1024x1024, .f32⟩
  | .hbm, ⟨1, _⟩ => ⟨S1x1x1024x1024, .i32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S1x1024, .f32⟩
  | .hbm, ⟨7, _⟩ => ⟨S1x1024, .f32⟩
  | .local _ .vmem, ⟨0, _⟩ => ⟨S1x21x256x512, .f32⟩
  | .local _ .vmem, ⟨1, _⟩ => ⟨S1x21x256x512, .f32⟩
  | .local _ .vmem, ⟨2, _⟩ => ⟨S1x1x256x512, .i32⟩
  | .local _ .vmem, ⟨3, _⟩ => ⟨S1x1x256x512, .i32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | _, _ => ⟨S1x21x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v677 : BitVec 1 := Scalar.cmpi .eq arg1 c3_i32
  let v678 : BitVec 32 := Scalar.extui v677
  let c0_i32_332 : BitVec 32 := 0#32
  let v679 : BitVec 1 := Scalar.cmpi .ne v678 c0_i32_332
  v679

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat, arg0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x21x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  natLt_1_32 : 1 < 32
  inb_S1x21x256x512_S1x1x256x512_0_0_0_0 : ∀ a, (![0, 0, 0, 0] : Fin 4 → Nat) a + S1x1x256x512.size a ≤ S1x21x256x512.size a
  inb_S1x21x256x512_S1x1x256x512_0_1_0_0 : ∀ a, (![0, 1, 0, 0] : Fin 4 → Nat) a + S1x1x256x512.size a ≤ S1x21x256x512.size a
  inb_S1x21x256x512_S1x1x256x512_0_2_0_0 : ∀ a, (![0, 2, 0, 0] : Fin 4 → Nat) a + S1x1x256x512.size a ≤ S1x21x256x512.size a
  inb_S1x21x256x512_S1x1x256x512_0_3_0_0 : ∀ a, (![0, 3, 0, 0] : Fin 4 → Nat) a + S1x1x256x512.size a ≤ S1x21x256x512.size a
  inb_S1x21x256x512_S1x1x256x512_0_4_0_0 : ∀ a, (![0, 4, 0, 0] : Fin 4 → Nat) a + S1x1x256x512.size a ≤ S1x21x256x512.size a
  inb_S1x21x256x512_S1x1x256x512_0_5_0_0 : ∀ a, (![0, 5, 0, 0] : Fin 4 → Nat) a + S1x1x256x512.size a ≤ S1x21x256x512.size a
  inb_S1x21x256x512_S1x1x256x512_0_6_0_0 : ∀ a, (![0, 6, 0, 0] : Fin 4 → Nat) a + S1x1x256x512.size a ≤ S1x21x256x512.size a
  inb_S1x21x256x512_S1x1x256x512_0_7_0_0 : ∀ a, (![0, 7, 0, 0] : Fin 4 → Nat) a + S1x1x256x512.size a ≤ S1x21x256x512.size a
  inb_S1x21x256x512_S1x1x256x512_0_8_0_0 : ∀ a, (![0, 8, 0, 0] : Fin 4 → Nat) a + S1x1x256x512.size a ≤ S1x21x256x512.size a
  inb_S1x21x256x512_S1x1x256x512_0_9_0_0 : ∀ a, (![0, 9, 0, 0] : Fin 4 → Nat) a + S1x1x256x512.size a ≤ S1x21x256x512.size a
  inb_S1x21x256x512_S1x1x256x512_0_10_0_0 : ∀ a, (![0, 10, 0, 0] : Fin 4 → Nat) a + S1x1x256x512.size a ≤ S1x21x256x512.size a
  inb_S1x21x256x512_S1x1x256x512_0_11_0_0 : ∀ a, (![0, 11, 0, 0] : Fin 4 → Nat) a + S1x1x256x512.size a ≤ S1x21x256x512.size a
  inb_S1x21x256x512_S1x1x256x512_0_12_0_0 : ∀ a, (![0, 12, 0, 0] : Fin 4 → Nat) a + S1x1x256x512.size a ≤ S1x21x256x512.size a
  inb_S1x21x256x512_S1x1x256x512_0_13_0_0 : ∀ a, (![0, 13, 0, 0] : Fin 4 → Nat) a + S1x1x256x512.size a ≤ S1x21x256x512.size a
  inb_S1x21x256x512_S1x1x256x512_0_14_0_0 : ∀ a, (![0, 14, 0, 0] : Fin 4 → Nat) a + S1x1x256x512.size a ≤ S1x21x256x512.size a
  inb_S1x21x256x512_S1x1x256x512_0_15_0_0 : ∀ a, (![0, 15, 0, 0] : Fin 4 → Nat) a + S1x1x256x512.size a ≤ S1x21x256x512.size a
  inb_S1x21x256x512_S1x1x256x512_0_16_0_0 : ∀ a, (![0, 16, 0, 0] : Fin 4 → Nat) a + S1x1x256x512.size a ≤ S1x21x256x512.size a
  inb_S1x21x256x512_S1x1x256x512_0_17_0_0 : ∀ a, (![0, 17, 0, 0] : Fin 4 → Nat) a + S1x1x256x512.size a ≤ S1x21x256x512.size a
  inb_S1x21x256x512_S1x1x256x512_0_18_0_0 : ∀ a, (![0, 18, 0, 0] : Fin 4 → Nat) a + S1x1x256x512.size a ≤ S1x21x256x512.size a
  inb_S1x21x256x512_S1x1x256x512_0_19_0_0 : ∀ a, (![0, 19, 0, 0] : Fin 4 → Nat) a + S1x1x256x512.size a ≤ S1x21x256x512.size a
  inb_S1x21x256x512_S1x1x256x512_0_20_0_0 : ∀ a, (![0, 20, 0, 0] : Fin 4 → Nat) a + S1x1x256x512.size a ≤ S1x21x256x512.size a
  reduces_S256x512_S512 : S256x512.Reduces [0] S512
  shapeCasts_S512_S1x512 : S512.ShapeCasts S1x512
  reducesTo_S1x1024_S_d0_1 : S1x1024.ReducesTo [0, 1] S_
  h_S_ : 0 < S_.numel
  bcast_S_S1x1024 : S_.BroadcastsInDim S1x1024 (![] : Fin 0 → Fin S1x1024.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x21x256x512.size a ≤ S1x21x1024x1024.size a
  hwx0_0 : ∀ i : grid0.Coords, EltTy.bits .f32 = 32 ∨ (Rect.block (s := S1x21x1024x1024) S1x21x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x512.size a ≤ S1x1x1024x1024.size a
  hwx0_1 : ∀ i : grid0.Coords, EltTy.bits .i32 = 32 ∨ (Rect.block (s := S1x1x1024x1024) S1x1x256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1024.size a
  hwx0_3 : ∀ i : grid0.Coords, EltTy.bits .f32 = 32 ∨ (Rect.block (s := S1x1024) S1x512.size (cc0_transform_3 i) (hinb0_3 i)).WholeWords (EltTy.packing .f32)

variable [Facts₀]

abbrev win0_0 : Pipeline.Window sig grid0 :=
  Pipeline.Window.ofSpec (Memref.whole main_arg0) S1x21x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x21x1024x1024 : Shape := ⟨4, ![1, 21, 1024, 1024]⟩
abbrev S1x1x1024x1024 : Shape := ⟨4, ![1, 1, 1024, 1024]⟩
abbrev S_ : Shape := ⟨0, ![]⟩
abbrev S1x1024x1024 : Shape := ⟨3, ![1, 1024, 1024]⟩
abbrev S1 : Shape := ⟨1, ![1]⟩
abbrev S1x1024 : Shape := ⟨2, ![1, 1024]⟩
abbrev S1x1 : Shape := ⟨2, ![1, 1]⟩

abbrev nBuf : Space → Nat
  | .hbm => 71
  | .vmem => 0
  | .smem => 0
  | _ => 0

abbrev bufTy : (tb : Table) → Fin (tcTables nBuf tb) → BufTy
  | .hbm, ⟨0, _⟩ => ⟨S1x21x1024x1024, .f32⟩
  | .hbm, ⟨1, _⟩ => ⟨S1x1x1024x1024, .i32⟩
  | .hbm, ⟨2, _⟩ => ⟨S_, .i32⟩
  | .hbm, ⟨3, _⟩ => ⟨S1x1x1024x1024, .i32⟩
  | .hbm, ⟨4, _⟩ => ⟨S1x1x1024x1024, .i1⟩
  | .hbm, ⟨5, _⟩ => ⟨S1x1x1024x1024, .f32⟩
  | .hbm, ⟨6, _⟩ => ⟨S_, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S1x1x1024x1024, .f32⟩
  | .hbm, ⟨12, _⟩ => ⟨S1x21x1024x1024, .f32⟩
  | .hbm, ⟨13, _⟩ => ⟨S1x21x1024x1024, .f32⟩
  | .hbm, ⟨14, _⟩ => ⟨S1x21x1024x1024, .f32⟩
  | .hbm, ⟨15, _⟩ => ⟨S_, .f32⟩
  | .hbm, ⟨16, _⟩ => ⟨S1x1024x1024, .f32⟩
  | .hbm, ⟨17, _⟩ => ⟨S1x1x1024x1024, .f32⟩
  | .hbm, ⟨18, _⟩ => ⟨S1x21x1024x1024, .f32⟩
  | .hbm, ⟨19, _⟩ => ⟨S1x21x1024x1024, .f32⟩
  | .hbm, ⟨20, _⟩ => ⟨S_, .f32⟩
  | .hbm, ⟨21, _⟩ => ⟨S1x21x1024x1024, .f32⟩
  | .hbm, ⟨22, _⟩ => ⟨S1x21x1024x1024, .f32⟩
  | .hbm, ⟨23, _⟩ => ⟨S1x21x1024x1024, .f32⟩
  | .hbm, ⟨24, _⟩ => ⟨S1x1x1024x1024, .f32⟩
  | .hbm, ⟨25, _⟩ => ⟨S1x21x1024x1024, .f32⟩
  | .hbm, ⟨26, _⟩ => ⟨S1x21x1024x1024, .f32⟩
  | .hbm, ⟨27, _⟩ => ⟨S_, .f32⟩
  | .hbm, ⟨28, _⟩ => ⟨S1x1024x1024, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S1, .f32⟩
  | .hbm, ⟨34, _⟩ => ⟨S_, .f32⟩
  | .hbm, ⟨35, _⟩ => ⟨S1x1024x1024, .f32⟩
  | .hbm, ⟨36, _⟩ => ⟨S_, .f32⟩
  | .hbm, ⟨37, _⟩ => ⟨S1x1024x1024, .f32⟩
  | .hbm, ⟨38, _⟩ => ⟨S1x1024x1024, .f32⟩
  | .hbm, ⟨39, _⟩ => ⟨S1x1x1024x1024, .f32⟩
  | .hbm, ⟨40, _⟩ => ⟨S1x21x1024x1024, .f32⟩
  | .hbm, ⟨41, _⟩ => ⟨S1x21x1024x1024, .f32⟩
  | .hbm, ⟨42, _⟩ => ⟨S1x21x1024x1024, .f32⟩
  | .hbm, ⟨43, _⟩ => ⟨S_, .f32⟩
  | .hbm, ⟨44, _⟩ => ⟨S1x1024x1024, .f32⟩
  | .hbm, ⟨45, _⟩ => ⟨S1x1x1024x1024, .f32⟩
  | .hbm, ⟨46, _⟩ => ⟨S1x1x1024x1024, .f32⟩
  | .hbm, ⟨47, _⟩ => ⟨S1x21x1024x1024, .f32⟩
  | .hbm, ⟨48, _⟩ => ⟨S1x21x1024x1024, .f32⟩
  | .hbm, ⟨49, _⟩ => ⟨S_, .f32⟩
  | .hbm, ⟨50, _⟩ => ⟨S1x21x1024x1024, .f32⟩
  | .hbm, ⟨51, _⟩ => ⟨S1x21x1024x1024, .i1⟩
  | .hbm, ⟨52, _⟩ => ⟨S1x21x1024x1024, .i1⟩
  | .hbm, ⟨53, _⟩ => ⟨S1x21x1024x1024, .i1⟩
  | .hbm, ⟨54, _⟩ => ⟨S1x21x1024x1024, .f32⟩
  | .hbm, ⟨55, _⟩ => ⟨S1x21x1024x1024, .f32⟩
  | .hbm, ⟨56, _⟩ => ⟨S_, .f32⟩
  | .hbm, ⟨57, _⟩ => ⟨S1x21x1024x1024, .f32⟩
  | .hbm, ⟨58, _⟩ => ⟨S1x21x1024x1024, .f32⟩
  | .hbm, ⟨59, _⟩ => ⟨S1x21x1024x1024, .f32⟩
  | .hbm, ⟨60, _⟩ => ⟨S1x21x1024x1024, .f32⟩
  | .hbm, ⟨61, _⟩ => ⟨S_, .f32⟩
  | .hbm, ⟨62, _⟩ => ⟨S1x1024x1024, .f32⟩
  | .hbm, ⟨63, _⟩ => ⟨S_, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S1x1, .f32⟩
  | .hbm, ⟨69, _⟩ => ⟨S1x1024, .f32⟩
  | .hbm, ⟨70, _⟩ => ⟨S1x1024, .f32⟩
  | _, _ => ⟨S1x21x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_call0_cst : Ref sig .tc := ⟨.hbm, 34, rfl⟩
abbrev main_call0_v0 : Ref sig .tc := ⟨.hbm, 35, rfl⟩
abbrev main_call0_cst_0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_cst_1 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_v24 : Ref sig .tc := ⟨.hbm, 48, rfl⟩
abbrev main_cst_6 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_cst_9 : Ref sig .tc := ⟨.hbm, 63, rfl⟩
abbrev main_v36 : Ref sig .tc := ⟨.hbm, 64, rfl⟩
abbrev main_cst_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩

abbrev nD : Nat := 1
abbrev τ : Topo := Topo.v7x

variable {F : FTy → Type} [FloatOps F]

class Facts₀ : Prop where
  bcast_S_S1x1x1024x1024 : S_.BroadcastsInDim S1x1x1024x1024 (![] : Fin 0 → Fin S1x1x1024x1024.rank)
  reducesTo_S1x21x1024x1024_S1x1024x1024_d1 : S1x21x1024x1024.ReducesTo [1] S1x1024x1024
  h_S_ : 0 < S_.numel
  bcast_S_S1x1024x1024 : S_.BroadcastsInDim S1x1024x1024 (![] : Fin 0 → Fin S1x1024x1024.rank)
  bcast_S1x1024x1024_S1x1x1024x1024_0_2_3 : S1x1024x1024.BroadcastsInDim S1x1x1024x1024 (![0, 2, 3] : Fin 3 → Fin S1x1x1024x1024.rank)
  bcast_S1x1x1024x1024_S1x21x1024x1024_0_1_2_3 : S1x1x1024x1024.BroadcastsInDim S1x21x1024x1024 (![0, 1, 2, 3] : Fin 4 → Fin S1x21x1024x1024.rank)
  bcast_S_S1x21x1024x1024 : S_.BroadcastsInDim S1x21x1024x1024 (![] : Fin 0 → Fin S1x21x1024x1024.rank)
  reducesTo_S1x1024x1024_S1_d1_2 : S1x1024x1024.ReducesTo [1, 2] S1
  bcast_S_S1 : S_.BroadcastsInDim S1 (![] : Fin 0 → Fin S1.rank)
  reducesTo_S1x1024x1024_S1x1024_d1 : S1x1024x1024.ReducesTo [1] S1x1024
  bcast_S_S1x1024 : S_.BroadcastsInDim S1x1024 (![] : Fin 0 → Fin S1x1024.rank)
  bcast_S1_S1x1_1 : S1.BroadcastsInDim S1x1 (![1] : Fin 1 → Fin S1x1.rank)
  bcast_S1x1_S1x1024_0_1 : S1x1.BroadcastsInDim S1x1024 (![0, 1] : Fin 2 → Fin S1x1024.rank)

variable [Facts₀]

class Facts : Prop extends Facts₀ where

variable [Facts]
-- ==== Proof.KBody.lean ====
/-
  The kernel body as regular folds over its 21 channel slices.

  At one grid point the body reads the logits block `x0 : [1, 21, 256, 512]` one channel slice at a time and the mask
  block `x1 : [1, 1, 256, 512]` once.  Over the 256 × 512 pixels of the tile it forms, all pointwise,

      μ   = max over the slices                  (left to right, from the first slice),
      s   = Σ_c exp (x_c - μ)                    (left to right, from zero),
      λ   = log s,
      ale = Σ_c (0 - w) · (log (exp (x_c - μ) + ε·s) - λ)          with w = 1 where the mask is not 255, else 0,
      epi = Σ_c ( [ℓ_c = 0 ? 0 : ℓ_c · log ℓ_c] - ℓ_c · (log (exp (x_c - μ) + ε·s) - λ) ),   ℓ_c = (x_c - μ) - λ,

  and then sums `ale` and `epi` down the 256 rows of the tile into two rows of 512.  These definitions state that
  computation once, generically in the float family; the case lemmas below say that what each control case of the body
  leaves in the two carried accumulators and in the two output blocks is built from them.
-/
import proofs.«414774_j22763326668833_3_alg».proof.Proof.Gen.KernelIdeal.Frame
import Idealize.ShloMosaic.Lib.Pipeline.Value
import Idealize.ShloMosaic.Lib.Tactic

set_option maxRecDepth 65536

noncomputable section

open Idealize.ShloMosaic Idealize.ShloMosaic.TcCoe Idealize.SL.Sem

namespace Cert.KernelIdeal.Body

open Cert.KernelIdeal Cert.KernelIdeal.Gen

variable {F : FTy → Type} [FloatOps F]

/-- A tile of pixels. -/
abbrev Tile (F : FTy → Type) : Type := FVec F S256x512 .f32
/-- One channel slice of the logits block. -/
abbrev Slice (F : FTy → Type) : Type := Vec F S1x1x256x512 .f32

/-- The 21 channel slices of the logits block, in channel order. -/
def slices (x0 : Vec F S1x21x256x512 .f32) : List (Slice F) :=
  [
    View.ld x0 (Rect.unit ![0, 0, 0, 0] ![1, 1, 256, 512] inb_S1x21x256x512_S1x1x256x512_0_0_0_0),
    View.ld x0 (Rect.unit ![0, 1, 0, 0] ![1, 1, 256, 512] inb_S1x21x256x512_S1x1x256x512_0_1_0_0),
    View.ld x0 (Rect.unit ![0, 2, 0, 0] ![1, 1, 256, 512] inb_S1x21x256x512_S1x1x256x512_0_2_0_0),
    View.ld x0 (Rect.unit ![0, 3, 0, 0] ![1, 1, 256, 512] inb_S1x21x256x512_S1x1x256x512_0_3_0_0),
    View.ld x0 (Rect.unit ![0, 4, 0, 0] ![1, 1, 256, 512] inb_S1x21x256x512_S1x1x256x512_0_4_0_0),
    View.ld x0 (Rect.unit ![0, 5, 0, 0] ![1, 1, 256, 512] inb_S1x21x256x512_S1x1x256x512_0_5_0_0),
    View.ld x0 (Rect.unit ![0, 6, 0, 0] ![1, 1, 256, 512] inb_S1x21x256x512_S1x1x256x512_0_6_0_0),
    View.ld x0 (Rect.unit ![0, 7, 0, 0] ![1, 1, 256, 512] inb_S1x21x256x512_S1x1x256x512_0_7_0_0),
    View.ld x0 (Rect.unit ![0, 8, 0, 0] ![1, 1, 256, 512] inb_S1x21x256x512_S1x1x256x512_0_8_0_0),
    View.ld x0 (Rect.unit ![0, 9, 0, 0] ![1, 1, 256, 512] inb_S1x21x256x512_S1x1x256x512_0_9_0_0),
    View.ld x0 (Rect.unit ![0, 10, 0, 0] ![1, 1, 256, 512] inb_S1x21x256x512_S1x1x256x512_0_10_0_0),
    View.ld x0 (Rect.unit ![0, 11, 0, 0] ![1, 1, 256, 512] inb_S1x21x256x512_S1x1x256x512_0_11_0_0),
    View.ld x0 (Rect.unit ![0, 12, 0, 0] ![1, 1, 256, 512] inb_S1x21x256x512_S1x1x256x512_0_12_0_0),
    View.ld x0 (Rect.unit ![0, 13, 0, 0] ![1, 1, 256, 512] inb_S1x21x256x512_S1x1x256x512_0_13_0_0),
    View.ld x0 (Rect.unit ![0, 14, 0, 0] ![1, 1, 256, 512] inb_S1x21x256x512_S1x1x256x512_0_14_0_0),
    View.ld x0 (Rect.unit ![0, 15, 0, 0] ![1, 1, 256, 512] inb_S1x21x256x512_S1x1x256x512_0_15_0_0),
    View.ld x0 (Rect.unit ![0, 16, 0, 0] ![1, 1, 256, 512] inb_S1x21x256x512_S1x1x256x512_0_16_0_0),
    View.ld x0 (Rect.unit ![0, 17, 0, 0] ![1, 1, 256, 512] inb_S1x21x256x512_S1x1x256x512_0_17_0_0),
    View.ld x0 (Rect.unit ![0, 18, 0, 0] ![1, 1, 256, 512] inb_S1x21x256x512_S1x1x256x512_0_18_0_0),
    View.ld x0 (Rect.unit ![0, 19, 0, 0] ![1, 1, 256, 512] inb_S1x21x256x512_S1x1x256x512_0_19_0_0),
    View.ld x0 (Rect.unit ![0, 20, 0, 0] ![1, 1, 256, 512] inb_S1x21x256x512_S1x1x256x512_0_20_0_0) ]

/-- A channel slice as a tile (the two unit axes dropped). -/
def asTile (xc : Slice F) : Tile F := shapeCast S256x512 xc shapeCasts_S1x1x256x512_S256x512

/-- The zero tile. -/
def zeroT : Tile F := broadcast S256x512 (Scalar.ofBits .f32 0x00000000#32)

/-- The smoothing constant ε on every pixel. -/
def epsT : Tile F := broadcast S256x512 (Scalar.ofBits .f32 0x2EDBE6FF#32)

/-- The weight tile: 1 where the mask is not 255, else 0. -/
def weight (x1 : Vec F S1x1x256x512 .i32) : Tile F := k0_pay7 x1

/-- The running maximum over the slices. -/
def maxT (x0 : Vec F S1x21x256x512 .f32) : Tile F :=
  match slices x0 with
  | [] => zeroT
  | l :: ls => ls.foldl (fun a xc => maximumf a (asTile xc)) (asTile l)

/-- `x_c - μ`. -/
def shiftT (μ : Tile F) (xc : Slice F) : Tile F := subf (asTile xc) μ

/-- `Σ_c exp (x_c - μ)`. -/
def sumExpT (x0 : Vec F S1x21x256x512 .f32) : Tile F :=
  (slices x0).foldl (fun a xc => addf a (exp (shiftT (maxT x0) xc))) zeroT

/-- `log (exp (x_c - μ) + ε·s) - λ`. -/
def lpT (μ s lam : Tile F) (xc : Slice F) : Tile F :=
  subf (log (addf (exp (shiftT μ xc)) (mulf epsT s))) lam

/-- `ℓ_c = (x_c - μ) - λ`. -/
def lsT (μ lam : Tile F) (xc : Slice F) : Tile F := subf (shiftT μ xc) lam

/-- `[ℓ_c = 0 ? 0 : ℓ_c log ℓ_c] - ℓ_c · lp_c`. -/
def klT (μ s lam : Tile F) (xc : Slice F) : Tile F :=
  subf (select (cmpf .oeq (lsT μ lam xc) zeroT) zeroT (mulf (lsT μ lam xc) (log (lsT μ lam xc))))
    (mulf (lsT μ lam xc) (lpT μ s lam xc))

/-- The weighted negative log-likelihood per pixel, summed over the channels. -/
def aleT (x0 : Vec F S1x21x256x512 .f32) (x1 : Vec F S1x1x256x512 .i32) : Tile F :=
  (slices x0).foldl (fun a xc => addf a (mulf (subf zeroT (weight x1)) (lpT (maxT x0) (sumExpT x0) (log (sumExpT x0)) xc))) zeroT

/-- The divergence per pixel, summed over the channels. -/
def epiT (x0 : Vec F S1x21x256x512 .f32) : Tile F :=
  (slices x0).foldl (fun a xc => addf a (klT (maxT x0) (sumExpT x0) (log (sumExpT x0)) xc)) zeroT

/-- A tile summed down its 256 rows, as a [1, 512] row. -/
def colSum (t : Tile F) : FVec F S1x512 .f32 :=
  shapeCast S1x512 (multiReduction .add [0] S512 t 0x00000000#32 reduces_S256x512_S512 (.inl rfl) rfl) shapeCasts_S512_S1x512

/-- The tile's contribution to the aleatoric accumulator. -/
def aleLocal (x0 : Vec F S1x21x256x512 .f32) (x1 : Vec F S1x1x256x512 .i32) : FVec F S1x512 .f32 := colSum (aleT x0 x1)

/-- The tile's contribution to the epistemic accumulator. -/
def epiLocal (x0 : Vec F S1x21x256x512 .f32) : FVec F S1x512 .f32 := colSum (epiT x0)

theorem hz2 : (![0, 0] : Fin 2 → Nat) = fun _ => 0 := funext fun a => by fin_cases a <;> rfl

theorem hz4 : (![0, 0, 0, 0] : Fin 4 → Nat) = fun _ => 0 := funext fun a => by fin_cases a <;> rfl

/-! ## What each control case leaves -/

/-- A resetting point: the epistemic accumulator is zeroed, read back, and left at `0 + epiLocal`. -/
theorem sout_A_0 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1x21x256x512 .f32) (x1 : Vec F S1x1x256x512 .i32) :
    sout0_A_0 c i arg2 harg2 arg3 harg3 arg4 harg4 arg5 harg5 arg6 harg6 arg7 harg7 hc0 hc1 x0 x1 = k0_pay1 (epiLocal x0) k0_pay5 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x512) hz2, View.readCov_unit_zero (S := S1x512) _ hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A resetting point: the aleatoric accumulator is zeroed, read back, and left at `0 + aleLocal`. -/
theorem sout_A_1 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : cond0_0 i) (hc1 : ¬cond0_1 i)
    (x0 : Vec F S1x21x256x512 .f32) (x1 : Vec F S1x1x256x512 .i32) :
    sout0_A_1 c i arg2 harg2 arg3 harg3 arg4 harg4 arg5 harg5 arg6 harg6 arg7 harg7 hc0 hc1 x0 x1 = k0_pay2 (aleLocal x0 x1) k0_pay6 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x512) hz2, View.readCov_unit_zero (S := S1x512) _ hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A point that neither resets nor writes out: the epistemic accumulator holding `xs0` is left at `xs0 + epiLocal`. -/
theorem sout_B_0 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1x21x256x512 .f32) (x1 : Vec F S1x1x256x512 .i32) (xs0 : Vec F S1x512 .f32) (xs1 : Vec F S1x512 .f32) :
    sout0_B_0 c i arg2 harg2 arg3 harg3 arg4 harg4 arg5 harg5 arg6 harg6 arg7 harg7 hc0 hc1 x0 x1 xs0 xs1 = k0_pay1 (epiLocal x0) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A point that neither resets nor writes out: the aleatoric accumulator holding `xs1` is left at `xs1 + aleLocal`. -/
theorem sout_B_1 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : ¬cond0_1 i)
    (x0 : Vec F S1x21x256x512 .f32) (x1 : Vec F S1x1x256x512 .i32) (xs0 : Vec F S1x512 .f32) (xs1 : Vec F S1x512 .f32) :
    sout0_B_1 c i arg2 harg2 arg3 harg3 arg4 harg4 arg5 harg5 arg6 harg6 arg7 harg7 hc0 hc1 x0 x1 xs0 xs1 = k0_pay2 (aleLocal x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A writing point: the epistemic accumulator holding `xs0` is left at `xs0 + epiLocal`. -/
theorem sout_C_0 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1x21x256x512 .f32) (x1 : Vec F S1x1x256x512 .i32) (xs0 : Vec F S1x512 .f32) (xs1 : Vec F S1x512 .f32) :
    sout0_C_0 c i arg2 harg2 arg3 harg3 arg4 harg4 arg5 harg5 arg6 harg6 arg7 harg7 hc0 hc1 x0 x1 xs0 xs1 = k0_pay1 (epiLocal x0) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A writing point: the aleatoric accumulator holding `xs1` is left at `xs1 + aleLocal`. -/
theorem sout_C_1 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1x21x256x512 .f32) (x1 : Vec F S1x1x256x512 .i32) (xs0 : Vec F S1x512 .f32) (xs1 : Vec F S1x512 .f32) :
    sout0_C_1 c i arg2 harg2 arg3 harg3 arg4 harg4 arg5 harg5 arg6 harg6 arg7 harg7 hc0 hc1 x0 x1 xs0 xs1 = k0_pay2 (aleLocal x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A writing point: the epistemic output block is the updated accumulator times `2^-10`. -/
theorem out_C_2 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1x21x256x512 .f32) (x1 : Vec F S1x1x256x512 .i32) (xs0 : Vec F S1x512 .f32) (xs1 : Vec F S1x512 .f32) :
    out0_C_2 c i arg2 harg2 arg3 harg3 arg4 harg4 arg5 harg5 arg6 harg6 arg7 harg7 hc0 hc1 x0 x1 xs0 xs1 = k0_pay3 (k0_pay1 (epiLocal x0) xs0) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

/-- A writing point: the aleatoric output block is the updated accumulator times `2^-20`. -/
theorem out_C_3 (c : Dev nD) (i : grid0.Coords) (arg2 : Memref sig .tc .vmem S1x21x256x512 .f32) (harg2 : arg2.IsWhole) (arg3 : Memref sig .tc .vmem S1x1x256x512 .i32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (hc0 : ¬cond0_0 i) (hc1 : cond0_1 i)
    (x0 : Vec F S1x21x256x512 .f32) (x1 : Vec F S1x1x256x512 .i32) (xs0 : Vec F S1x512 .f32) (xs1 : Vec F S1x512 .f32) :
    out0_C_3 c i arg2 harg2 arg3 harg3 arg4 harg4 arg5 harg5 arg6 harg6 arg7 harg7 hc0 hc1 x0 x1 xs0 xs1 = k0_pay4 (k0_pay2 (aleLocal x0 x1) xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, View.ld_unit_zero (S := S1x512) hz2, View.ld_unit_zero (S := S1x1x256x512) hz4, View.readCov_unit_zero (S := S1x512) _ hz2]
  rfl

end Cert.KernelIdeal.Body

end
-- ==== Proof.Blocks.lean ====
/-
  Where the windows' blocks sit in their arrays.

  The grid has 2 × 4 points, the row-tile coordinate running fastest: point `t` is column tile `t / 4` and row tile
  `t % 4`.  The logits' block at `t` is rows `256·(t % 4) …` and columns `512·(t / 4) …` of every channel, the labels'
  block the same pixels, and each output's block is columns `512·(t / 4) …` of its one row; the two column tiles'
  writing points (`t % 4 = 3`) between them cover each output row.
-/
import proofs.«414774_j22763326668833_3_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The logits' block at point `t`, at its literal type. -/
abbrev xblk (c : Dev nD) (t : Fin cfg0.N) : Vec F S1x21x256x512 .f32 := iblk m c 0 t
/-- The labels' block at point `t`, at its literal type. -/
abbrev mblk (c : Dev nD) (t : Fin cfg0.N) : Vec F S1x1x256x512 .i32 := iblk m c 1 t

theorem tdiv_lt (t : Fin cfg0.N) : t.val / 4 < 2 := by
  have : t.val < 8 := lt_of_lt_of_eq t.isLt (show cfg0.N = 8 from N_0); omega

/-- Row `256·(t % 4) + p` of the image. -/
def rowOf (t : Fin cfg0.N) (p : Fin 256) : Fin 1024 := ⟨256 * (t.val % 4) + p.val, by have := p.isLt; omega⟩
/-- Column `512·(t / 4) + q` of the image. -/
def colOf (t : Fin cfg0.N) (q : Fin 512) : Fin 1024 := ⟨512 * (t.val / 4) + q.val, by have := q.isLt; have := tdiv_lt t; omega⟩

/-- The printed index maps over the grid: the input windows' block index is (0, 0, row tile, column tile), the output
    windows' (0, column tile), the row tile being `t % 4` and the column tile `t / 4`. -/
theorem idx_facts : ∀ t : Fin cfg0.N,
    win0_0.index t (0 : Fin 4) = 0 ∧ win0_0.index t (1 : Fin 4) = 0
    ∧ win0_0.index t (2 : Fin 4) = t.val % 4 ∧ win0_0.index t (3 : Fin 4) = t.val / 4
    ∧ win0_1.index t (0 : Fin 4) = 0 ∧ win0_1.index t (1 : Fin 4) = 0
    ∧ win0_1.index t (2 : Fin 4) = t.val % 4 ∧ win0_1.index t (3 : Fin 4) = t.val / 4
    ∧ win0_2.index t (0 : Fin 2) = 0 ∧ win0_2.index t (1 : Fin 2) = t.val / 4
    ∧ win0_3.index t (0 : Fin 2) = 0 ∧ win0_3.index t (1 : Fin 2) = t.val / 4 :=
  (by decide +kernel : ∀ t : Fin grid0.N, _)

/-- The logits' block at `t` reads the logits at row `rowOf t p`, column `colOf t q`. -/
theorem xblk_apply (c : Dev nD) (t : Fin cfg0.N) (ch : Fin 21) (p : Fin 256) (q : Fin 512) :
    xblk m c t (ix4 (0 : Fin 1) ch p q)
      = (m ((c.tc : Thread nD τ).loc main_arg0) : S1x21x1024x1024.Idx → Elt F .f32) (ix4 (0 : Fin 1) ch (rowOf t p) (colOf t q)) := by
  obtain ⟨e0, e1, e2, e3, -⟩ := idx_facts t
  show iblk m c 0 t _ = _
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * 0 = 0; rw [e0]
  | ⟨1, _⟩ => show win0_0.index t (1 : Fin 4) * 21 + 1 * ch.val = ch.val; rw [e1]; omega
  | ⟨2, _⟩ => show win0_0.index t (2 : Fin 4) * 256 + 1 * p.val = 256 * (t.val % 4) + p.val; rw [e2]; omega
  | ⟨3, _⟩ => show win0_0.index t (3 : Fin 4) * 512 + 1 * q.val = 512 * (t.val / 4) + q.val; rw [e3]; omega

/-- The labels' block at `t` reads the labels at the same pixel. -/
theorem mblk_apply (c : Dev nD) (t : Fin cfg0.N) (p : Fin 256) (q : Fin 512) :
    mblk m c t (ix4 (0 : Fin 1) (0 : Fin 1) p q)
      = (m ((c.tc : Thread nD τ).loc main_arg1) : S1x1x1024x1024.Idx → Elt F .i32) (ix4 (0 : Fin 1) (0 : Fin 1) (rowOf t p) (colOf t q)) := by
  obtain ⟨-, -, -, -, e0, e1, e2, e3, -⟩ := idx_facts t
  show iblk m c 1 t _ = _
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * 0 = 0; rw [e0]
  | ⟨1, _⟩ => show win0_1.index t (1 : Fin 4) * 1 + 1 * 0 = 0; rw [e1]
  | ⟨2, _⟩ => show win0_1.index t (2 : Fin 4) * 256 + 1 * p.val = 256 * (t.val % 4) + p.val; rw [e2]; omega
  | ⟨3, _⟩ => show win0_1.index t (3 : Fin 4) * 512 + 1 * q.val = 512 * (t.val / 4) + q.val; rw [e3]; omega

/-- A whole-row function read through output window `w`'s block at `t` (`w = 2` or `3`) is the function at column `colOf t q`. -/
theorem read_out2 (G : S1x1024.Idx → Elt F .f32) (t : Fin cfg0.N) :
    (((cfg0.win 2).blk t).view.read (Elt F) G : S1x512.Idx → Elt F .f32)
      = fun y => G (ix2 (0 : Fin 1) (colOf t (y 1))) := by
  obtain ⟨-, -, -, -, -, -, -, -, e0, e1, -⟩ := idx_facts t
  funext y
  rw [View.read_apply]
  show G _ = G _
  congr 1
  funext a
  apply Fin.ext
  have hy : (y 0).val < 1 := idx2_lt0 y
  match a with
  | ⟨0, _⟩ => show win0_2.index t (0 : Fin 2) * 1 + 1 * (y 0).val = 0; rw [e0]; omega
  | ⟨1, _⟩ => show win0_2.index t (1 : Fin 2) * 512 + 1 * (y 1).val = 512 * (t.val / 4) + (y 1).val; rw [e1]; omega

theorem read_out3 (G : S1x1024.Idx → Elt F .f32) (t : Fin cfg0.N) :
    (((cfg0.win 3).blk t).view.read (Elt F) G : S1x512.Idx → Elt F .f32)
      = fun y => G (ix2 (0 : Fin 1) (colOf t (y 1))) := by
  obtain ⟨-, -, -, -, -, -, -, -, -, -, e0, e1⟩ := idx_facts t
  funext y
  rw [View.read_apply]
  show G _ = G _
  congr 1
  funext a
  apply Fin.ext
  have hy : (y 0).val < 1 := idx2_lt0 y
  match a with
  | ⟨0, _⟩ => show win0_3.index t (0 : Fin 2) * 1 + 1 * (y 0).val = 0; rw [e0]; omega
  | ⟨1, _⟩ => show win0_3.index t (1 : Fin 2) * 512 + 1 * (y 1).val = 512 * (t.val / 4) + (y 1).val; rw [e1]; omega

/-- What point `t` writes back of output 2 is the whole staging block (the window's blocks are never clipped). -/
theorem flushed2_eq {c : Dev nD} (dat : Dat τ (Elt F) Unit ℕ (UR sig nD τ) ℕ cfg0 c) (t : Fin cfg0.N) :
    (dat.flushed 2 t : S1x512.Idx → Elt F .f32) = dat.after 2 t := by
  show (cfg0.win 2).cut (grid0.coords t) (dat.after 2 t) = _
  rfl

theorem flushed3_eq {c : Dev nD} (dat : Dat τ (Elt F) Unit ℕ (UR sig nD τ) ℕ cfg0 c) (t : Fin cfg0.N) :
    (dat.flushed 3 t : S1x512.Idx → Elt F .f32) = dat.after 3 t := by
  show (cfg0.win 3).cut (grid0.coords t) (dat.after 3 t) = _
  rfl

/-- Every element of output 2's row lies in the block of a writing point. -/
theorem cover2 (i : S1x1024.Idx) : ∃ t : Fin cfg0.N, (cfg0.win 2).flush t = true ∧ i ∈ ((cfg0.win 2).blk t).view.set := by
  have h0 : (i 0).val < 1 := idx2_lt0 i
  have h1 : (i 1).val < 1024 := idx2_lt1 i
  have hN : cfg0.N = 8 := N_0
  -- the writing point of the column tile that holds column `i 1`
  obtain ⟨t, hv⟩ : ∃ t : Fin cfg0.N, t.val = 4 * ((i 1).val / 512) + 3 := ⟨⟨4 * ((i 1).val / 512) + 3, by omega⟩, rfl⟩
  refine ⟨t, (flush0_2 t).mpr (by omega), ?_⟩
  obtain ⟨-, -, -, -, -, -, -, -, e0, e1, -⟩ := idx_facts t
  show i ∈ ((View.whole main_v0_0).slice (win0_2.rect t)).set
  rw [View.set_slice_whole, Rect.mem_set_unit]
  intro a
  match a with
  | ⟨0, _⟩ =>
    show win0_2.index t (0 : Fin 2) * 1 ≤ (i 0).val ∧ (i 0).val < win0_2.index t (0 : Fin 2) * 1 + 1
    rw [e0]; omega
  | ⟨1, _⟩ =>
    show win0_2.index t (1 : Fin 2) * 512 ≤ (i 1).val ∧ (i 1).val < win0_2.index t (1 : Fin 2) * 512 + 512
    rw [e1]; omega

/-- Every element of output 3's row lies in the block of a writing point. -/
theorem cover3 (i : S1x1024.Idx) : ∃ t : Fin cfg0.N, (cfg0.win 3).flush t = true ∧ i ∈ ((cfg0.win 3).blk t).view.set := by
  have h0 : (i 0).val < 1 := idx2_lt0 i
  have h1 : (i 1).val < 1024 := idx2_lt1 i
  have hN : cfg0.N = 8 := N_0
  -- the writing point of the column tile that holds column `i 1`
  obtain ⟨t, hv⟩ : ∃ t : Fin cfg0.N, t.val = 4 * ((i 1).val / 512) + 3 := ⟨⟨4 * ((i 1).val / 512) + 3, by omega⟩, rfl⟩
  refine ⟨t, (flush0_3 t).mpr (by omega), ?_⟩
  obtain ⟨-, -, -, -, -, -, -, -, -, -, e0, e1⟩ := idx_facts t
  show i ∈ ((View.whole main_v0_1).slice (win0_3.rect t)).set
  rw [View.set_slice_whole, Rect.mem_set_unit]
  intro a
  match a with
  | ⟨0, _⟩ =>
    show win0_3.index t (0 : Fin 2) * 1 ≤ (i 0).val ∧ (i 0).val < win0_3.index t (0 : Fin 2) * 1 + 1
    rw [e0]; omega
  | ⟨1, _⟩ =>
    show win0_3.index t (1 : Fin 2) * 512 ≤ (i 1).val ∧ (i 1).val < win0_3.index t (1 : Fin 2) * 512 + 512
    rw [e1]; omega

end Cert.KernelIdeal.Blocks

end
-- ==== Proof.Accum.lean ====
/-
  The two carried accumulators, point by point.

  Along one column tile the grid visits the four row tiles in order.  At the first (`t % 4 = 0`) the body zeroes both
  accumulators and adds the tile's contribution; at the other three it adds the tile's contribution to what the point
  before left; at the last (`t % 4 = 3`) it also writes each accumulator, times its constant, into the output block.
  So an accumulator after point `t` is a left fold of "add this tile's contribution" over the row tiles visited so
  far in this column tile, and the output block written at `t % 4 = 3` is the whole column tile's fold, scaled.
-/
import proofs.«414774_j22763326668833_3_alg».proof.Proof.KBody
import proofs.«414774_j22763326668833_3_alg».proof.Proof.Blocks

noncomputable section

open Idealize.ShloMosaic Idealize.ShloMosaic.TcCoe Idealize.SL.Sem

namespace Cert.KernelIdeal.Acc

open Cert.KernelIdeal Cert.KernelIdeal.Gen Cert.KernelIdeal.Body Cert.KernelIdeal.Blocks

variable {F : FTy → Type} [FloatOps F]
variable (m : (ℓ : Loc nD τ sig) → Buf (Elt F) ℓ)

/-- The epistemic accumulator after point `n`. -/
def epiAcc (c : Dev nD) (n : ℕ) (h : n < cfg0.N) : Vec F S1x512 .f32 := (outsAt0 m c n h).2.2.1

/-- The aleatoric accumulator after point `n`. -/
def aleAcc (c : Dev nD) (n : ℕ) (h : n < cfg0.N) : Vec F S1x512 .f32 := (outsAt0 m c n h).2.2.2

/-- At the first row tile of a column tile the epistemic accumulator is `0 + ` the tile's contribution. -/
theorem epiAcc_reset (c : Dev nD) (n : ℕ) (h : n < cfg0.N) (h0 : n % 4 = 0) :
    epiAcc m c n h = k0_pay1 (epiLocal (xblk m c ⟨n, h⟩)) k0_pay5 := by
  have h0' : (⟨n, h⟩ : Fin cfg0.N).val % 4 = 0 := h0
  have h1 : ¬(⟨n, h⟩ : Fin cfg0.N).val % 4 = 3 := by dsimp only; omega
  unfold epiAcc
  rw [outsAt0_A m c ⟨n, h⟩ h0' h1]
  dsimp only
  exact sout_A_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0') (fun h' => h1 ((hcond0_1 ⟨n, h⟩).mp h')) (xblk m c ⟨n, h⟩) (mblk m c ⟨n, h⟩)

/-- At the first row tile of a column tile the aleatoric accumulator is `0 + ` the tile's contribution. -/
theorem aleAcc_reset (c : Dev nD) (n : ℕ) (h : n < cfg0.N) (h0 : n % 4 = 0) :
    aleAcc m c n h = k0_pay2 (aleLocal (xblk m c ⟨n, h⟩) (mblk m c ⟨n, h⟩)) k0_pay6 := by
  have h0' : (⟨n, h⟩ : Fin cfg0.N).val % 4 = 0 := h0
  have h1 : ¬(⟨n, h⟩ : Fin cfg0.N).val % 4 = 3 := by dsimp only; omega
  unfold aleAcc
  rw [outsAt0_A m c ⟨n, h⟩ h0' h1]
  dsimp only
  exact sout_A_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0') (fun h' => h1 ((hcond0_1 ⟨n, h⟩).mp h')) (xblk m c ⟨n, h⟩) (mblk m c ⟨n, h⟩)

/-- At every other row tile the epistemic accumulator is what the point before left plus the tile's contribution. -/
theorem epiAcc_step (c : Dev nD) (n : ℕ) (h : n + 1 < cfg0.N) (h0 : ¬(n + 1) % 4 = 0) :
    epiAcc m c (n + 1) h = k0_pay1 (epiLocal (xblk m c ⟨n + 1, h⟩)) (epiAcc m c n (Nat.lt_of_succ_lt h)) := by
  have h0' : ¬(⟨n + 1, h⟩ : Fin cfg0.N).val % 4 = 0 := h0
  unfold epiAcc
  by_cases h1 : (⟨n + 1, h⟩ : Fin cfg0.N).val % 4 = 3
  · rw [outsAt0_C m c ⟨n + 1, h⟩ h0' h1]
    dsimp only
    exact sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0' ((hcond0_0 ⟨n + 1, h⟩).mp h')) ((hcond0_1 ⟨n + 1, h⟩).mpr h1) (xblk m c ⟨n + 1, h⟩) (mblk m c ⟨n + 1, h⟩) (outsAt0 m c n (Nat.lt_of_succ_lt h)).2.2.1 (outsAt0 m c n (Nat.lt_of_succ_lt h)).2.2.2
  · rw [outsAt0_B m c ⟨n + 1, h⟩ h0' h1]
    dsimp only
    exact sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0' ((hcond0_0 ⟨n + 1, h⟩).mp h')) (fun h' => h1 ((hcond0_1 ⟨n + 1, h⟩).mp h')) (xblk m c ⟨n + 1, h⟩) (mblk m c ⟨n + 1, h⟩) (outsAt0 m c n (Nat.lt_of_succ_lt h)).2.2.1 (outsAt0 m c n (Nat.lt_of_succ_lt h)).2.2.2

/-- At every other row tile the aleatoric accumulator is what the point before left plus the tile's contribution. -/
theorem aleAcc_step (c : Dev nD) (n : ℕ) (h : n + 1 < cfg0.N) (h0 : ¬(n + 1) % 4 = 0) :
    aleAcc m c (n + 1) h = k0_pay2 (aleLocal (xblk m c ⟨n + 1, h⟩) (mblk m c ⟨n + 1, h⟩)) (aleAcc m c n (Nat.lt_of_succ_lt h)) := by
  have h0' : ¬(⟨n + 1, h⟩ : Fin cfg0.N).val % 4 = 0 := h0
  unfold aleAcc
  by_cases h1 : (⟨n + 1, h⟩ : Fin cfg0.N).val % 4 = 3
  · rw [outsAt0_C m c ⟨n + 1, h⟩ h0' h1]
    dsimp only
    exact sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0' ((hcond0_0 ⟨n + 1, h⟩).mp h')) ((hcond0_1 ⟨n + 1, h⟩).mpr h1) (xblk m c ⟨n + 1, h⟩) (mblk m c ⟨n + 1, h⟩) (outsAt0 m c n (Nat.lt_of_succ_lt h)).2.2.1 (outsAt0 m c n (Nat.lt_of_succ_lt h)).2.2.2
  · rw [outsAt0_B m c ⟨n + 1, h⟩ h0' h1]
    dsimp only
    exact sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) scM0_1 (Memref.isWhole_whole _) (fun h' => h0' ((hcond0_0 ⟨n + 1, h⟩).mp h')) (fun h' => h1 ((hcond0_1 ⟨n + 1, h⟩).mp h')) (xblk m c ⟨n + 1, h⟩) (mblk m c ⟨n + 1, h⟩) (outsAt0 m c n (Nat.lt_of_succ_lt h)).2.2.1 (outsAt0 m c n (Nat.lt_of_succ_lt h)).2.2.2

/-- At the last row tile of a column tile the epistemic output block is the accumulator after that point, scaled. -/
theorem out2_at (c : Dev nD) (n : ℕ) (h : n < cfg0.N) (h3 : n % 4 = 3) :
    (outsAt0 m c n h).1 = k0_pay3 (epiAcc m c n h) := by
  obtain ⟨k, rfl⟩ : ∃ k, n = k + 1 := ⟨n - 1, by omega⟩
  have h0 : ¬(k + 1) % 4 = 0 := by omega
  have h0' : ¬(⟨k + 1, h⟩ : Fin cfg0.N).val % 4 = 0 := h0
  have h3' : (⟨k + 1, h⟩ : Fin cfg0.N).val % 4 = 3 := h3
  rw [epiAcc_step m c k h h0, outsAt0_C m c ⟨k + 1, h⟩ h0' h3']
  dsimp only
  exact out_C_2 c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) scM0_1 (Memref.isWhole_whole _) (fun h' => h0' ((hcond0_0 ⟨k + 1, h⟩).mp h')) ((hcond0_1 ⟨k + 1, h⟩).mpr h3') (xblk m c ⟨k + 1, h⟩) (mblk m c ⟨k + 1, h⟩) (outsAt0 m c k (Nat.lt_of_succ_lt h)).2.2.1 (outsAt0 m c k (Nat.lt_of_succ_lt h)).2.2.2

/-- At the last row tile of a column tile the aleatoric output block is the accumulator after that point, scaled. -/
theorem out3_at (c : Dev nD) (n : ℕ) (h : n < cfg0.N) (h3 : n % 4 = 3) :
    (outsAt0 m c n h).2.1 = k0_pay4 (aleAcc m c n h) := by
  obtain ⟨k, rfl⟩ : ∃ k, n = k + 1 := ⟨n - 1, by omega⟩
  have h0 : ¬(k + 1) % 4 = 0 := by omega
  have h0' : ¬(⟨k + 1, h⟩ : Fin cfg0.N).val % 4 = 0 := h0
  have h3' : (⟨k + 1, h⟩ : Fin cfg0.N).val % 4 = 3 := h3
  rw [aleAcc_step m c k h h0, outsAt0_C m c ⟨k + 1, h⟩ h0' h3']
  dsimp only
  exact out_C_3 c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) scM0_0 (Memref.isWhole_whole _) scM0_1 (Memref.isWhole_whole _) (fun h' => h0' ((hcond0_0 ⟨k + 1, h⟩).mp h')) ((hcond0_1 ⟨k + 1, h⟩).mpr h3') (xblk m c ⟨k + 1, h⟩) (mblk m c ⟨k + 1, h⟩) (outsAt0 m c k (Nat.lt_of_succ_lt h)).2.2.1 (outsAt0 m c k (Nat.lt_of_succ_lt h)).2.2.2

end Cert.KernelIdeal.Acc

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.Consts.lean ====
/-
  The f32 words the two programs spell, as the extended reals they denote: `0`, the smoothing constant `ε` (a positive
  real; its exact dyadic value is never needed, only its sign and finiteness), `-∞`, the two extents `1024` and
  `1024²` the reference divides by, and their exact reciprocals `2^-10` and `2^-20` the kernel multiplies by.
  This is the one module that opens the bit patterns.
-/
import proofs.«414774_j22763326668833_3_alg».proof.Proof.LibFinite
import Idealize.ShloMosaic.PureOps.Ideal

noncomputable section

namespace Cert.Bayes

open Idealize.ShloMosaic Cert.LibFinite

/-- The smoothing constant ε: the f32 word nearest `1e-10`. -/
def eps : EReal := Ideal.ofBits .f32 0x2EDBE6FF#32
/-- The kernel's factor `1 / 1024`. -/
def k10 : EReal := Ideal.ofBits .f32 0x3A800000#32
/-- The kernel's factor `1 / 1024²`. -/
def k20 : EReal := Ideal.ofBits .f32 0x35800000#32

theorem ofBits_zero : Ideal.ofBits .f32 0x00000000#32 = 0 := by
  simp [Ideal.ofBits, Ideal.ieee]

theorem ofBits_neg_inf : Ideal.ofBits .f32 0xFF800000#32 = ⊥ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_1048576 : Ideal.ofBits .f32 0x49800000#32 = ((1048576 : ℝ) : EReal) := by
  simp [Ideal.ofBits, Ideal.ieee, -EReal.coe_mul]; norm_num

theorem k10_eq : k10 = ((1 / 1024 : ℝ) : EReal) := by
  unfold k10; simp [Ideal.ofBits, Ideal.ieee, -EReal.coe_mul]; norm_num

theorem k20_eq : k20 = ((1 / 1048576 : ℝ) : EReal) := by
  unfold k20; simp [Ideal.ofBits, Ideal.ieee, -EReal.coe_mul]; norm_num

/-- ε is a real number, -/
theorem eps_eq : ∃ r : ℝ, 0 < r ∧ eps = (r : EReal) := by
  unfold eps
  refine ⟨_, ?_, by simp [Ideal.ofBits, Ideal.ieee, -EReal.coe_mul]; rfl⟩
  norm_num

theorem isFin_eps : IsFin eps := by
  obtain ⟨r, -, h⟩ := eps_eq; rw [h]; exact isFin_coe r

/-- and positive. -/
theorem eps_pos : 0 < eps := by
  obtain ⟨r, hr, h⟩ := eps_eq; rw [h]; exact EReal.coe_pos.mpr hr

theorem k10_nonneg : 0 ≤ k10 := by rw [k10_eq]; exact EReal.coe_nonneg.mpr (by norm_num)
theorem k10_ne_top : k10 ≠ ⊤ := by rw [k10_eq]; exact EReal.coe_ne_top _
theorem k20_nonneg : 0 ≤ k20 := by rw [k20_eq]; exact EReal.coe_nonneg.mpr (by norm_num)
theorem k20_ne_top : k20 ≠ ⊤ := by rw [k20_eq]; exact EReal.coe_ne_top _

/-- A quotient by `1024` is the product with `2^-10`, on every extended real. -/
theorem div_1024 (y : EReal) : Ideal.div y (Ideal.ofBits .f32 0x44800000#32) = y * k10 := by
  rw [ofBits_1024, Ideal.div_coe (by norm_num), k10_eq]

/-- A quotient by `1024²` is the product with `2^-20`, on every extended real. -/
theorem div_1048576 (y : EReal) : Ideal.div y (Ideal.ofBits .f32 0x49800000#32) = y * k20 := by
  rw [ofBits_1048576, Ideal.div_coe (by norm_num), k20_eq]

end Cert.Bayes

end
-- ==== Proof.AccumIdeal.lean ====
/-
  The accumulators at an index, at the extended reals.

  At the ideal instance "add this tile's contribution" is pointwise addition, the zeroed accumulator is `0`, and the
  two output scalings are the products with `2^-10` and `2^-20`.  So after the last row tile of a column tile each
  accumulator holds, at every column of the tile, `0` plus the sum over the four row tiles of that tile's contribution,
  and the output block written there is that sum times the constant.
-/
import proofs.«414774_j22763326668833_3_alg».proof.Proof.Accum
import proofs.«414774_j22763326668833_3_alg».proof.Proof.Consts
import Idealize.ShloMosaic.Lib.Pipeline.Value
import Idealize.ShloMosaic.Lib.ValueIdx

noncomputable section

open Idealize.ShloMosaic Idealize.ShloMosaic.TcCoe Idealize.SL.Sem Idealize.ShloMosaic.ValueIdx
open scoped BigOperators

namespace Cert.KernelIdeal.Acc

open Cert.KernelIdeal Cert.KernelIdeal.Gen Cert.KernelIdeal.Body Cert.KernelIdeal.Blocks Cert.Bayes

variable (m : (ℓ : Loc nD τ sig) → Buf (Elt Ideal) ℓ)

/-! ## The five small payloads at an index -/

theorem pay1_apply (e acc : Vec Ideal S1x512 .f32) (i : S1x512.Idx) : k0_pay1 (F := Ideal) e acc i = acc i + e i := by
  unfold k0_pay1
  rw [shapeCast_self]
  rfl

theorem pay2_apply (e acc : Vec Ideal S1x512 .f32) (i : S1x512.Idx) : k0_pay2 (F := Ideal) e acc i = acc i + e i := by
  unfold k0_pay2
  rw [shapeCast_self]
  rfl

theorem pay3_apply (v : Vec Ideal S1x512 .f32) (i : S1x512.Idx) : k0_pay3 (F := Ideal) v i = v i * k10 := rfl

theorem pay4_apply (v : Vec Ideal S1x512 .f32) (i : S1x512.Idx) : k0_pay4 (F := Ideal) v i = v i * k20 := rfl

theorem pay5_apply (i : S1x512.Idx) : k0_pay5 (F := Ideal) i = 0 := by
  unfold k0_pay5
  rw [shapeCast_self]
  exact ofBits_zero

theorem pay6_apply (i : S1x512.Idx) : k0_pay6 (F := Ideal) i = 0 := by
  unfold k0_pay6
  rw [shapeCast_self]
  exact ofBits_zero

/-! ## The contribution of a point, as a function of the point's number -/

/-- Point `n`'s contribution to the epistemic accumulator (`0` past the grid, where it is never used). -/
def epiM (c : Dev nD) (n : ℕ) (i : S1x512.Idx) : EReal :=
  if h : n < cfg0.N then epiLocal (xblk m c ⟨n, h⟩) i else 0

/-- Point `n`'s contribution to the aleatoric accumulator (`0` past the grid, where it is never used). -/
def aleM (c : Dev nD) (n : ℕ) (i : S1x512.Idx) : EReal :=
  if h : n < cfg0.N then aleLocal (xblk m c ⟨n, h⟩) (mblk m c ⟨n, h⟩) i else 0

/-! ## The folds -/

/-- The epistemic accumulator after point `t`: `0` plus the contributions of the row tiles visited so far in
    `t`'s column tile. -/
theorem epiAcc_apply (c : Dev nD) (t : ℕ) (ht : t < cfg0.N) (i : S1x512.Idx) :
    epiAcc m c t ht i = 0 + ∑ s ∈ Finset.range (t % 4 + 1), epiM m c (4 * (t / 4) + s) i := by
  have hN : cfg0.N = 8 := N_0
  have h' : 4 * (t / 4) + t % 4 < cfg0.N := by rw [Nat.div_add_mod]; exact ht
  rw [Pipeline.eq_accAt_of_mod (epiAcc m c) 4
      (fun n h => k0_pay1 (epiLocal (xblk m c ⟨n, h⟩)) (k0_pay5 (F := Ideal)))
      (fun n h acc => k0_pay1 (epiLocal (xblk m c ⟨n, h⟩)) acc)
      (fun n h h0 => epiAcc_reset m c n h h0) (fun n h h0 => epiAcc_step m c n h h0) (by decide) t ht h']
  exact Pipeline.accAt_add_apply _ _ (fun _ => 0) (epiM m c) (4 * (t / 4)) (t % 4)
    (fun h i => by rw [pay1_apply, pay5_apply, epiM, dif_pos h])
    (fun n h acc i _ _ => by rw [pay1_apply, epiM, dif_pos h])
    (t % 4) le_rfl h' i

/-- The aleatoric accumulator after point `t`, likewise. -/
theorem aleAcc_apply (c : Dev nD) (t : ℕ) (ht : t < cfg0.N) (i : S1x512.Idx) :
    aleAcc m c t ht i = 0 + ∑ s ∈ Finset.range (t % 4 + 1), aleM m c (4 * (t / 4) + s) i := by
  have hN : cfg0.N = 8 := N_0
  have h' : 4 * (t / 4) + t % 4 < cfg0.N := by rw [Nat.div_add_mod]; exact ht
  rw [Pipeline.eq_accAt_of_mod (aleAcc m c) 4
      (fun n h => k0_pay2 (aleLocal (xblk m c ⟨n, h⟩) (mblk m c ⟨n, h⟩)) (k0_pay6 (F := Ideal)))
      (fun n h acc => k0_pay2 (aleLocal (xblk m c ⟨n, h⟩) (mblk m c ⟨n, h⟩)) acc)
      (fun n h h0 => aleAcc_reset m c n h h0) (fun n h h0 => aleAcc_step m c n h h0) (by decide) t ht h']
  exact Pipeline.accAt_add_apply _ _ (fun _ => 0) (aleM m c) (4 * (t / 4)) (t % 4)
    (fun h i => by rw [pay2_apply, pay6_apply, aleM, dif_pos h])
    (fun n h acc i _ _ => by rw [pay2_apply, aleM, dif_pos h])
    (t % 4) le_rfl h' i

/-- The epistemic output block a writing point leaves: the column tile's four contributions, summed, times `2^-10`. -/
theorem out2_apply (c : Dev nD) (t : Fin cfg0.N) (h3 : t.val % 4 = 3) (i : S1x512.Idx) :
    (outsAt0 m c t.val t.isLt).1 i = (0 + ∑ s ∈ Finset.range 4, epiM m c (4 * (t.val / 4) + s) i) * k10 := by
  rw [out2_at m c t.val t.isLt h3, pay3_apply, epiAcc_apply, h3]

/-- The aleatoric output block a writing point leaves: the column tile's four contributions, summed, times `2^-20`. -/
theorem out3_apply (c : Dev nD) (t : Fin cfg0.N) (h3 : t.val % 4 = 3) (i : S1x512.Idx) :
    (outsAt0 m c t.val t.isLt).2.1 i = (0 + ∑ s ∈ Finset.range 4, aleM m c (4 * (t.val / 4) + s) i) * k20 := by
  rw [out3_at m c t.val t.isLt h3, pay4_apply, aleAcc_apply, h3]

/-! ## Four row tiles of 256 rows are the image's 1024 rows -/

/-- A sum over `a` tiles of `b` rows each is the sum over the `a·b` rows. -/
theorem sum_tiles {β : Type*} [AddCommMonoid β] (f : ℕ → β) (a b : ℕ) :
    ∑ s ∈ Finset.range a, ∑ p : Fin b, f (b * s + p.val) = ∑ i : Fin (a * b), f i.val := by
  rw [← Equiv.sum_comp finProdFinEquiv (fun i : Fin (a * b) => f i.val), Fintype.sum_prod_type,
    Finset.sum_range (fun s => ∑ p : Fin b, f (b * s + p.val))]
  refine Finset.sum_congr rfl fun s _ => Finset.sum_congr rfl fun p _ => ?_
  simp only [finProdFinEquiv_apply_val]
  rw [Nat.add_comm]

end Cert.KernelIdeal.Acc

end
-- ==== Proof.Scalar.lean ====
/-
  The per-pixel mathematics, on the extended reals, with no program in sight.

  For one pixel the 21 channel values are `x : Fin 21 → EReal`.  With `μ = max_c x_c`, `a_c = exp (x_c - μ)` and
  `s = Σ_c a_c`, both programs form the log-softmax `ℓ_c = (x_c - μ) - log s` in the same way, and the logarithm of the
  smoothed probability in two spellings,

      log (a_c / s + ε)            and            log (a_c + ε · s) - log s,

  which agree as soon as `a_c` is a nonnegative real, `s` a positive real and `ε` a positive real:
  `a_c / s + ε = (a_c + ε·s) / s`, and the logarithm of a quotient of positive reals is the difference of the
  logarithms.  Everything else the two programs do per pixel is the same arithmetic of the same quantities; what is
  left between them is how the means over the image are taken: a quotient by `2^k` against a product with `2^(-k)`
  (equal on every extended real), once before and once after a finite sum (a nonnegative finite factor distributes
  over any sum of extended reals).
-/
import proofs.«414774_j22763326668833_3_alg».proof.Proof.LibFinite
import Mathlib.Analysis.SpecialFunctions.Log.Basic
import Mathlib.Algebra.BigOperators.Fin

noncomputable section

namespace Cert.Bayes

open Idealize.ShloMosaic Cert.LibFinite
open scoped BigOperators

/-! ## One pixel -/

section Pixel

variable (ε : EReal) (x : Fin 21 → EReal)

/-- The largest of the 21 channel values. -/
def mx : EReal := Finset.univ.fold max ⊥ x

/-- `exp (x_c - μ)`. -/
def ex (c : Fin 21) : EReal := Ideal.exp (x c - mx x)

/-- The softmax denominator `Σ_c exp (x_c - μ)`. -/
def se : EReal := ∑ c, ex x c

/-- The log-softmax `(x_c - μ) - log s`. -/
def ls (c : Fin 21) : EReal := (x c - mx x) - Ideal.log (se x)

/-- `log (p_c + ε)` as `log (a_c + ε·s) - log s`. -/
def lpK (c : Fin 21) : EReal := Ideal.log (ex x c + ε * se x) - Ideal.log (se x)

/-- `log (p_c + ε)` as `log (a_c / s + ε)`. -/
def lpR (c : Fin 21) : EReal := Ideal.log (Ideal.div (ex x c) (se x) + ε)

/-- `y · log y`, with the value `0` at `y = 0`. -/
def xlx (y : EReal) : EReal := if y = 0 then 0 else y * Ideal.log y

/-- The pointwise divergence term `ℓ_c log ℓ_c - ℓ_c · log (p_c + ε)`. -/
def kl (c : Fin 21) : EReal := xlx (ls x c) - ls x c * lpK ε x c

/-- The pixel's weighted negative log-likelihood, summed over the channels (`w` is the pixel's weight). -/
def alePix (w : EReal) : EReal := ∑ c, (0 - w) * lpK ε x c

/-- The pixel's divergence, summed over the channels. -/
def epiPix : EReal := ∑ c, kl ε x c

end Pixel

/-! ## The law between the two spellings of `log (p + ε)` -/

/-- For reals `0 ≤ a`, `0 < s`, `0 < ε`: `log (a / s + ε) = log (a + ε s) - log s` on the extended reals. -/
theorem log_div_add_eq {a s ε : ℝ} (ha : 0 ≤ a) (hs : 0 < s) (hε : 0 < ε) :
    Ideal.log (Ideal.div (a : EReal) (s : EReal) + (ε : EReal))
      = Ideal.log ((a : EReal) + (ε : EReal) * (s : EReal)) - Ideal.log (s : EReal) := by
  have hs0 : s ≠ 0 := hs.ne'
  have hnum : 0 < a + ε * s := by positivity
  have hq : 0 < a * (1 / s) + ε := by positivity
  rw [Ideal.div_coe hs0, ← EReal.coe_mul, ← EReal.coe_add, ← EReal.coe_mul, ← EReal.coe_add,
    Ideal.log_coe, Ideal.log_coe, Ideal.log_coe, if_neg (not_le.mpr hq), if_neg (not_le.mpr hnum), if_neg (not_le.mpr hs),
    ← EReal.coe_sub]
  congr 1
  rw [← Real.log_div hnum.ne' hs0]
  congr 1
  field_simp

/-- The same law with the hypotheses on extended reals: `a` and `s` finite, `0 ≤ a`, `0 < s`, `ε` finite and positive. -/
theorem log_div_add_eq_of {a s ε : EReal} (ha : IsFin a) (ha0 : 0 ≤ a) (hs : IsFin s) (hs0 : 0 < s) (hε : IsFin ε) (hε0 : 0 < ε) :
    Ideal.log (Ideal.div a s + ε) = Ideal.log (a + ε * s) - Ideal.log s := by
  obtain ⟨a, rfl⟩ := isFin_iff.mp ha
  obtain ⟨s, rfl⟩ := isFin_iff.mp hs
  obtain ⟨ε, rfl⟩ := isFin_iff.mp hε
  exact log_div_add_eq (EReal.coe_nonneg.mp ha0) (EReal.coe_pos.mp hs0) (EReal.coe_pos.mp hε0)

/-! ## Finiteness of the pixel's quantities when the 21 channel values are real -/

/-- The maximum of the 21 values is one of them. -/
theorem mx_mem (x : Fin 21 → EReal) : ∃ c, mx x = x c := by
  obtain ⟨c, -, hc⟩ := Finset.exists_mem_eq_sup Finset.univ ⟨(0 : Fin 21), Finset.mem_univ _⟩ x
  exact ⟨c, hc⟩

theorem isFin_mx {x : Fin 21 → EReal} (h : ∀ c, IsFin (x c)) : IsFin (mx x) := by
  obtain ⟨c, hc⟩ := mx_mem x
  rw [hc]; exact h c

theorem isFin_ex {x : Fin 21 → EReal} (h : ∀ c, IsFin (x c)) (c : Fin 21) : IsFin (ex x c) :=
  ((h c).sub (isFin_mx h)).exp

theorem ex_pos {x : Fin 21 → EReal} (h : ∀ c, IsFin (x c)) (c : Fin 21) : 0 < ex x c :=
  ((h c).sub (isFin_mx h)).exp_pos

theorem isFin_se {x : Fin 21 → EReal} (h : ∀ c, IsFin (x c)) : IsFin (se x) :=
  isFin_sum_univ _ (isFin_ex h)

theorem se_pos {x : Fin 21 → EReal} (h : ∀ c, IsFin (x c)) : 0 < se x :=
  lt_of_lt_of_le (ex_pos h 0)
    (Finset.single_le_sum (f := ex x) (fun c _ => (ex_pos h c).le) (Finset.mem_univ (0 : Fin 21)))

/-- THE LAW, per channel: for real channel values and a positive finite `ε` the two spellings of
    `log (p_c + ε)` are one extended real. -/
theorem lpR_eq_lpK {ε : EReal} (hε : IsFin ε) (hε0 : 0 < ε) {x : Fin 21 → EReal} (h : ∀ c, IsFin (x c)) (c : Fin 21) :
    lpR ε x c = lpK ε x c :=
  log_div_add_eq_of (isFin_ex h c) (ex_pos h c).le (isFin_se h) (se_pos h) hε hε0

/-! ## The means: a quotient by a nonzero real is a product, and a nonnegative finite factor crosses a sum -/

/-- `(Σ_i f i) · k = Σ_i (f i · k)` for a nonnegative finite `k`, whatever the terms are. -/
theorem sum_mul_of_nonneg {ι : Type*} (s : Finset ι) (f : ι → EReal) {k : EReal} (hk : 0 ≤ k) (hk' : k ≠ ⊤) :
    (∑ i ∈ s, f i) * k = ∑ i ∈ s, f i * k := by
  classical
  induction s using Finset.induction_on with
  | empty => simp
  | insert a s ha ih => rw [Finset.sum_insert ha, Finset.sum_insert ha, EReal.right_distrib_of_nonneg_of_ne_top hk hk', ih]

end Cert.Bayes

end
-- ==== Proof.Spec.lean ====
/-
  The result as ONE function of the two argument arrays.

  `lg : [1, 21, 1024, 1024]` are the logits and `mk : [1, 1, 1024, 1024]` the integer labels.  Pixel `(i, j)` has the
  channel vector `c ↦ lg (0, c, i, j)` and the weight `1` unless its label is `255`.  Column `j` of the image collects

      aleCol j = Σ_i alePix (pixel i j),          epiCol j = Σ_i epiPix (pixel i j),

  and the result at `(0, j)` is the mean of the weighted negative log-likelihood over the whole image plus the mean of
  the divergence down column `j`:

      G (0, j) = (0 + Σ_{j'} aleCol j' · 2^-20) + epiCol j · 2^-10.
-/
import proofs.«414774_j22763326668833_3_alg».proof.Proof.Scalar
import proofs.«414774_j22763326668833_3_alg».proof.Proof.Consts
import Idealize.ShloMosaic.Lib.ValueIdx

noncomputable section

namespace Cert.Bayes

open Idealize.ShloMosaic Idealize.ShloMosaic.ValueIdx
open scoped BigOperators

/-- The logits' shape. -/
abbrev SLogits : Shape := ⟨4, ![1, 21, 1024, 1024]⟩
/-- The labels' shape. -/
abbrev SMask : Shape := ⟨4, ![1, 1, 1024, 1024]⟩
/-- The result's shape. -/
abbrev SOut : Shape := ⟨2, ![1, 1024]⟩

/-- The channel vector of pixel `(i, j)`. -/
def px (lg : SLogits.Idx → EReal) (i j : Fin 1024) : Fin 21 → EReal := fun c => lg (ix4 0 c i j)

/-- The weight of a label: `0` for the ignored label `255`, else `1`. -/
def wtOf (b : BitVec 32) : EReal := if b = 255#32 then 0 else 1

/-- The weight of pixel `(i, j)`. -/
def wt (mk : SMask.Idx → BitVec 32) (i j : Fin 1024) : EReal := wtOf (mk (ix4 0 0 i j))

/-- Column `j`'s weighted negative log-likelihood, summed down the rows. -/
def aleCol (lg : SLogits.Idx → EReal) (mk : SMask.Idx → BitVec 32) (j : Fin 1024) : EReal :=
  ∑ i : Fin 1024, alePix eps (px lg i j) (wt mk i j)

/-- Column `j`'s divergence, summed down the rows. -/
def epiCol (lg : SLogits.Idx → EReal) (j : Fin 1024) : EReal :=
  ∑ i : Fin 1024, epiPix eps (px lg i j)

/-- The aleatoric row the kernel's region leaves: column sums times `2^-20`. -/
def aleRow (lg : SLogits.Idx → EReal) (mk : SMask.Idx → BitVec 32) : SOut.Idx → EReal :=
  fun o => aleCol lg mk (o 1) * k20

/-- The epistemic row the kernel's region leaves: column sums times `2^-10`. -/
def epiRow (lg : SLogits.Idx → EReal) : SOut.Idx → EReal :=
  fun o => epiCol lg (o 1) * k10

/-- THE RESULT: the image mean of the weighted negative log-likelihood, plus each column's mean divergence. -/
def G (lg : SLogits.Idx → EReal) (mk : SMask.Idx → BitVec 32) : SOut.Idx → EReal :=
  fun o => (0 + ∑ o' : SOut.Idx, aleRow lg mk o') + epiRow lg o

end Cert.Bayes

end
-- ==== Proof.KIdx.lean ====
/-
  The kernel body's two row contributions, read at one column at the extended reals.

  Column `q` of the tile's contribution to an accumulator is the sum down the tile's 256 rows of the per-pixel quantity
  of `Scalar.lean`: each pixel `(p, q)` of the tile has the channel vector `c ↦ x0 (0, c, p, q)` and the weight of its
  label `x1 (0, 0, p, q)`.
-/
import proofs.«414774_j22763326668833_3_alg».proof.Proof.KBody
import proofs.«414774_j22763326668833_3_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Data.Fintype.Fin

noncomputable section

open Idealize.ShloMosaic Idealize.ShloMosaic.TcCoe Idealize.ShloMosaic.ValueIdx
open scoped BigOperators

namespace Cert.KernelIdeal.Body

open Cert.KernelIdeal Cert.KernelIdeal.Gen Cert.Bayes

/-! ## The 21 channel slices as one family -/

/-- Channel `c` of the logits block: the unit-stride load at offset `c` on the channel axis. -/
def chan {F : FTy → Type} (x0 : Vec F S1x21x256x512 .f32) (c : Fin 21) : Slice F :=
  View.ld x0 (Rect.unit ![0, c.val, 0, 0] ![1, 1, 256, 512] (fun a => by
    match a with
    | ⟨0, _⟩ => exact Nat.le_refl _
    | ⟨1, _⟩ => show c.val + 1 ≤ 21; omega
    | ⟨2, _⟩ => exact Nat.le_refl _
    | ⟨3, _⟩ => exact Nat.le_refl _))

/-- The list of slices is that family in channel order. -/
theorem slices_eq {F : FTy → Type} (x0 : Vec F S1x21x256x512 .f32) : slices x0 = List.ofFn (chan x0) := rfl

/-- A channel slice viewed as a tile, at pixel `(p, q)`, is the block at `(0, c, p, q)`. -/
theorem asTile_chan_apply (x0 : Vec Ideal S1x21x256x512 .f32) (c : Fin 21) (p : Fin 256) (q : Fin 512) :
    asTile (chan x0 c) (ix2 p q) = x0 (ix4 (0 : Fin 1) c p q) := by
  unfold asTile
  refine (shapeCast_apply (chan x0 c) shapeCasts_S1x1x256x512_S256x512 (ix2 p q) (ix4 (0 : Fin 1) (0 : Fin 1) p q) ?_).trans ?_
  · rw [Shape.rowMajor_val_four, Shape.rowMajor_val_two]
    show ((0 * 1 + 0) * 256 + p.val) * 512 + q.val = p.val * 512 + q.val
    omega
  · unfold chan
    show x0 _ = x0 _
    refine congrArg x0 (funext fun a => Fin.ext ?_)
    match a with
    | ⟨0, _⟩ => rfl
    | ⟨1, _⟩ => show c.val + 1 * 0 = c.val; omega
    | ⟨2, _⟩ => show 0 + 1 * p.val = p.val; omega
    | ⟨3, _⟩ => show 0 + 1 * q.val = q.val; omega

/-! ## Left folds of pointwise operations, read at one pixel -/

/-- A left fold of pointwise additions, at one pixel: the start value plus the sum of the summands there. -/
theorem foldl_addf_apply {β : Type} (g : β → Tile Ideal) (i : S256x512.Idx) :
    ∀ (l : List β) (a : Tile Ideal), (l.foldl (fun a x => addf a (g x)) a) i = a i + (l.map fun x => g x i).sum
  | [], a => by simp
  | x :: l, a => by
    rw [List.foldl_cons, foldl_addf_apply g i l, List.map_cons, List.sum_cons, addf_apply, add_assoc]

/-- Over the family of the 21 slices that sum is the sum over the channels. -/
theorem foldl_addf_slices_apply (x0 : Vec Ideal S1x21x256x512 .f32) (g : Slice Ideal → Tile Ideal) (a : Tile Ideal) (i : S256x512.Idx) :
    ((slices x0).foldl (fun a xc => addf a (g xc)) a) i = a i + ∑ c : Fin 21, g (chan x0 c) i := by
  rw [foldl_addf_apply g i, slices_eq, List.map_ofFn, List.sum_ofFn]
  rfl

/-- A left fold of pointwise maxima, at one pixel: the fold of `max` over the values there. -/
theorem foldl_maximumf_apply {β : Type} (g : β → Tile Ideal) (i : S256x512.Idx) :
    ∀ (l : List β) (a : Tile Ideal), (l.foldl (fun a x => maximumf a (g x)) a) i = (l.map fun x => g x i).foldl max (a i)
  | [], a => rfl
  | x :: l, a => by
    rw [List.foldl_cons, foldl_maximumf_apply g i l, List.map_cons, List.foldl_cons, maximumf_apply]

/-- The fold of `max` from `⊥` over all of `Fin n` is the left fold over the list of values. -/
theorem fold_max_univ_eq_foldl {n : Nat} (x : Fin n → EReal) :
    Finset.univ.fold max ⊥ x = (List.ofFn x).foldl max ⊥ := by
  unfold Finset.fold
  rw [Fin.univ_val_map, Multiset.coe_fold_l]

/-- The running maximum at pixel `(p, q)` is the largest of the pixel's 21 channel values. -/
theorem maxT_apply (x0 : Vec Ideal S1x21x256x512 .f32) (p : Fin 256) (q : Fin 512) :
    maxT x0 (ix2 p q) = mx (fun c : Fin 21 => x0 (ix4 (0 : Fin 1) c p q)) := by
  have e : maxT x0 = (List.ofFn fun k : Fin 20 => chan x0 k.succ).foldl (fun a xc => maximumf a (asTile xc)) (asTile (chan x0 0)) := rfl
  have hr : mx (fun c : Fin 21 => x0 (ix4 (0 : Fin 1) c p q))
      = (List.ofFn fun k : Fin 20 => x0 (ix4 (0 : Fin 1) k.succ p q)).foldl max (x0 (ix4 (0 : Fin 1) (0 : Fin 21) p q)) := by
    unfold mx
    rw [fold_max_univ_eq_foldl, List.ofFn_succ, List.foldl_cons, max_eq_right bot_le]
  rw [hr, e, foldl_maximumf_apply (fun xc => asTile xc) (ix2 p q), List.map_ofFn, asTile_chan_apply]
  congr 1
  exact congrArg List.ofFn (funext fun k => asTile_chan_apply x0 k.succ p q)

/-! ## The pointwise stages at one pixel, over an opaque maximum, denominator and its logarithm -/

theorem zeroT_apply (i : S256x512.Idx) : zeroT (F := Ideal) i = 0 := ofBits_zero

theorem epsT_apply (i : S256x512.Idx) : epsT (F := Ideal) i = eps := rfl

theorem shiftT_apply (μ : Tile Ideal) (xc : Slice Ideal) (i : S256x512.Idx) :
    shiftT μ xc i = asTile xc i - μ i := rfl

theorem exp_apply (t : Tile Ideal) (i : S256x512.Idx) : exp t i = Ideal.exp (t i) := rfl

theorem log_apply (t : Tile Ideal) (i : S256x512.Idx) : log t i = Ideal.log (t i) := rfl

/-- `log (exp (x_c - μ) + ε·s) - λ` at one pixel. -/
theorem lpT_apply (μ s lam : Tile Ideal) (xc : Slice Ideal) (i : S256x512.Idx) :
    lpT μ s lam xc i = Ideal.log (Ideal.exp (asTile xc i - μ i) + eps * s i) - lam i := rfl

/-- `(x_c - μ) - λ` at one pixel. -/
theorem lsT_apply (μ lam : Tile Ideal) (xc : Slice Ideal) (i : S256x512.Idx) :
    lsT μ lam xc i = (asTile xc i - μ i) - lam i := rfl

/-- The guarded `y log y` of the body, a select on the comparison with zero, is `xlx`. -/
theorem select_oeq_zero (y : EReal) :
    Scalar.select (Ideal.cmp .oeq y 0) (0 : EReal) (y * Ideal.log y) = xlx y := by
  unfold xlx
  by_cases h : y = 0
  · rw [if_pos h]
    have hb : Ideal.cmp .oeq y 0 = 1#1 := by
      show BitVec.ofBool (decide (y = 0)) = 1#1
      rw [decide_eq_true h]; rfl
    rw [hb, select_one]
  · rw [if_neg h]
    have hb : Ideal.cmp .oeq y 0 = 0#1 := by
      show BitVec.ofBool (decide (y = 0)) = 0#1
      rw [decide_eq_false h]; rfl
    rw [hb, select_zero]

/-- The divergence term at one pixel. -/
theorem klT_apply (μ s lam : Tile Ideal) (xc : Slice Ideal) (i : S256x512.Idx) :
    klT μ s lam xc i = xlx (lsT μ lam xc i) - lsT μ lam xc i * lpT μ s lam xc i := by
  show Scalar.select (Ideal.cmp .oeq (lsT μ lam xc i) (zeroT (F := Ideal) i)) (zeroT (F := Ideal) i) (lsT μ lam xc i * Ideal.log (lsT μ lam xc i))
      - lsT μ lam xc i * lpT μ s lam xc i = _
  rw [zeroT_apply, select_oeq_zero]

/-! ## The weight, and the sum down the rows -/

/-- The weight at pixel `(p, q)`: the bit "label ≠ 255", widened and read as a signed integer, is the real `1` or `0`. -/
theorem weight_apply (x1 : Vec Ideal S1x1x256x512 .i32) (p : Fin 256) (q : Fin 512) :
    weight x1 (ix2 p q) = wtOf (x1 (ix4 (0 : Fin 1) (0 : Fin 1) p q)) := by
  have hcast : shapeCast S256x512 x1 shapeCasts_S1x1x256x512_S256x512 (ix2 p q) = x1 (ix4 (0 : Fin 1) (0 : Fin 1) p q) :=
    shapeCast_apply x1 shapeCasts_S1x1x256x512_S256x512 (ix2 p q) (ix4 (0 : Fin 1) (0 : Fin 1) p q) (by
      rw [Shape.rowMajor_val_four, Shape.rowMajor_val_two]
      show ((0 * 1 + 0) * 256 + p.val) * 512 + q.val = p.val * 512 + q.val
      omega)
  show (((((IntOp.cmpi .ne (shapeCast S256x512 x1 shapeCasts_S1x1x256x512_S256x512 (ix2 p q)) 255#32).setWidth 32).toInt : ℤ) : ℝ) : EReal) = _
  rw [hcast]
  generalize x1 (ix4 (0 : Fin 1) (0 : Fin 1) p q) = w
  unfold wtOf
  by_cases h : w = 255#32
  · rw [if_pos h]
    have hb : IntOp.cmpi .ne w 255#32 = 0#1 := by
      show BitVec.ofBool (w != 255#32) = 0#1
      rw [h]; rfl
    rw [hb]
    have : ((0#1).setWidth 32).toInt = 0 := by decide
    rw [this]; simp
  · rw [if_neg h]
    have hb : IntOp.cmpi .ne w 255#32 = 1#1 := by
      show BitVec.ofBool (w != 255#32) = 1#1
      rw [bne_iff_ne.mpr h]; rfl
    rw [hb]
    have : ((1#1).setWidth 32).toInt = 1 := by decide
    rw [this]; simp

/-- A tile summed down its rows, at column `q`: the sum over the 256 rows of the tile at `(p, q)`. -/
theorem colSum_apply (t : Tile Ideal) (q : Fin 512) :
    colSum t (ix2 (0 : Fin 1) q) = ∑ p : Fin 256, t (ix2 p q) := by
  unfold colSum
  refine (shapeCast_a_1a_apply _ shapeCasts_S512_S1x512 (0 : Fin 1) q).trans ?_
  refine (Ideal.multiReduction_add_single (φ := .f32) t 0x00000000#32 reduces_S256x512_S512 (.inl rfl) rfl (ix1 q)).trans ?_
  refine Finset.sum_congr rfl fun k _ => congrArg t (funext fun a => Fin.ext ?_)
  match a with
  | ⟨0, _⟩ => rfl
  | ⟨1, _⟩ => rfl

/-! ## One pixel of the tile -/

section Pixel

variable (x0 : Vec Ideal S1x21x256x512 .f32) (p : Fin 256) (q : Fin 512)

/-- The channel vector of pixel `(p, q)` of the tile. -/
abbrev pix : Fin 21 → EReal := fun c : Fin 21 => x0 (ix4 (0 : Fin 1) c p q)

/-- The denominator at the pixel: the sum over the channels of `exp (x_c - μ)`. -/
theorem sumExpT_apply : sumExpT x0 (ix2 p q) = se (pix x0 p q) := by
  unfold sumExpT
  refine (foldl_addf_slices_apply x0 (fun xc => exp (shiftT (maxT x0) xc)) zeroT (ix2 p q)).trans ?_
  rw [zeroT_apply, zero_add]
  unfold se ex
  refine Finset.sum_congr rfl fun c _ => ?_
  rw [exp_apply, shiftT_apply, asTile_chan_apply, maxT_apply]

/-- The logarithm of the smoothed probability of channel `c` at the pixel. -/
theorem lpT_pix (c : Fin 21) :
    lpT (maxT x0) (sumExpT x0) (log (sumExpT x0)) (chan x0 c) (ix2 p q) = lpK eps (pix x0 p q) c := by
  rw [lpT_apply, asTile_chan_apply, maxT_apply, log_apply, sumExpT_apply]
  rfl

/-- The log-softmax of channel `c` at the pixel. -/
theorem lsT_pix (c : Fin 21) :
    lsT (maxT x0) (log (sumExpT x0)) (chan x0 c) (ix2 p q) = ls (pix x0 p q) c := by
  rw [lsT_apply, asTile_chan_apply, maxT_apply, log_apply, sumExpT_apply]
  rfl

/-- The divergence at the pixel, summed over the channels. -/
theorem epiT_apply : epiT x0 (ix2 p q) = epiPix eps (pix x0 p q) := by
  unfold epiT
  refine (foldl_addf_slices_apply x0 (fun xc => klT (maxT x0) (sumExpT x0) (log (sumExpT x0)) xc) zeroT (ix2 p q)).trans ?_
  rw [zeroT_apply, zero_add]
  unfold epiPix kl
  refine Finset.sum_congr rfl fun c _ => ?_
  rw [klT_apply, lsT_pix, lpT_pix]

/-- The weighted negative log-likelihood at the pixel, summed over the channels. -/
theorem aleT_apply (x1 : Vec Ideal S1x1x256x512 .i32) :
    aleT x0 x1 (ix2 p q) = alePix eps (pix x0 p q) (wtOf (x1 (ix4 (0 : Fin 1) (0 : Fin 1) p q))) := by
  unfold aleT
  refine (foldl_addf_slices_apply x0
    (fun xc => mulf (subf zeroT (weight x1)) (lpT (maxT x0) (sumExpT x0) (log (sumExpT x0)) xc)) zeroT (ix2 p q)).trans ?_
  rw [zeroT_apply, zero_add]
  unfold alePix
  refine Finset.sum_congr rfl fun c _ => ?_
  rw [mulf_apply, subf_apply, zeroT_apply, weight_apply, lpT_pix]

end Pixel

/-! ## The two row contributions at one column -/

/-- Column `q` of the tile's epistemic contribution: the pixels' divergences summed down the rows. -/
theorem epiLocal_apply (x0 : Vec Ideal S1x21x256x512 .f32) (q : Fin 512) :
    epiLocal (F := Ideal) x0 (ix2 (0 : Fin 1) q)
      = ∑ p : Fin 256, epiPix eps (fun c : Fin 21 => x0 (ix4 (0 : Fin 1) c p q)) := by
  unfold epiLocal
  rw [colSum_apply]
  exact Finset.sum_congr rfl fun p _ => epiT_apply x0 p q

/-- Column `q` of the tile's aleatoric contribution: the pixels' weighted negative log-likelihoods summed down the rows. -/
theorem aleLocal_apply (x0 : Vec Ideal S1x21x256x512 .f32) (x1 : Vec Ideal S1x1x256x512 .i32) (q : Fin 512) :
    aleLocal (F := Ideal) x0 x1 (ix2 (0 : Fin 1) q)
      = ∑ p : Fin 256, alePix eps (fun c : Fin 21 => x0 (ix4 (0 : Fin 1) c p q)) (wtOf (x1 (ix4 (0 : Fin 1) (0 : Fin 1) p q))) := by
  unfold aleLocal
  rw [colSum_apply]
  exact Finset.sum_congr rfl fun p _ => aleT_apply x0 p q x1

end Cert.KernelIdeal.Body

end
-- ==== Proof.KResult.lean ====
/-
  The kernel's result is `G` of its two arguments.

  A writing point's output block is the column tile's four contributions, summed and scaled (`AccumIdeal.lean`); each
  contribution at column `q` is the sum down the tile's 256 rows of the per-pixel quantity (`KIdx.lean`) of the pixels
  the tile's blocks hold (`Blocks.lean`); four tiles of 256 rows are the image's 1024 rows.  So each output row after
  the run is the row of `Spec.lean` (`epiRow`, `aleRow`): every element lies in the block of a writing point, which
  wrote exactly that.  The host lines after the region sum the aleatoric row from zero, spread the sum over the row's
  width and add the epistemic row: `G`.
-/
import proofs.«414774_j22763326668833_3_alg».proof.Proof.AccumIdeal
import proofs.«414774_j22763326668833_3_alg».proof.Proof.KIdx
import proofs.«414774_j22763326668833_3_alg».proof.Proof.Spec
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.Result

open Cert.KernelIdeal Cert.KernelIdeal.Gen Cert.KernelIdeal.Body Cert.KernelIdeal.Blocks Cert.KernelIdeal.Acc Cert.Bayes

variable (m : (ℓ : Loc nD τ sig) → Buf (Elt Ideal) ℓ) (ρ : Dev nD → PrngReg)

/-- The logits as the region finds them. -/
abbrev lgOf (c : Dev nD) : SLogits.Idx → EReal := m ((c.tc : Thread nD τ).loc main_arg0)
/-- The labels as the region finds them. -/
abbrev mkOf (c : Dev nD) : SMask.Idx → BitVec 32 := m ((c.tc : Thread nD τ).loc main_arg1)

/-- A function of the image's rows as a function of every natural (`0` past the last row, where it is never used). -/
def rowF (g : Fin 1024 → EReal) (r : ℕ) : EReal := if h : r < 1024 then g ⟨r, h⟩ else 0

theorem sum_rowF (g : Fin 1024 → EReal) :
    ∑ s ∈ Finset.range 4, ∑ p : Fin 256, rowF g (256 * s + p.val) = ∑ i : Fin 1024, g i := by
  rw [sum_tiles (rowF g) 4 256]
  exact Finset.sum_congr rfl fun i _ => by unfold rowF; rw [dif_pos i.isLt]

/-- Row tile `s` of `t`'s column tile holds rows `256·s …` and the columns of `t`. -/
theorem tile_px (c : Dev nD) (t : Fin cfg0.N) (s : ℕ) (hs : s < 4) (hlt : 4 * (t.val / 4) + s < cfg0.N)
    (p : Fin 256) (q : Fin 512) (hr : 256 * s + p.val < 1024) :
    (fun ch : Fin 21 => xblk m c ⟨4 * (t.val / 4) + s, hlt⟩ (ix4 (0 : Fin 1) ch p q))
      = px (lgOf m c) ⟨256 * s + p.val, hr⟩ (colOf t q) := by
  funext ch
  rw [xblk_apply]
  show lgOf m c (ix4 (0 : Fin 1) ch (rowOf ⟨4 * (t.val / 4) + s, hlt⟩ p) (colOf ⟨4 * (t.val / 4) + s, hlt⟩ q)) = _
  have e1 : rowOf ⟨4 * (t.val / 4) + s, hlt⟩ p = ⟨256 * s + p.val, hr⟩ := Fin.ext (by
    show 256 * ((4 * (t.val / 4) + s) % 4) + p.val = 256 * s + p.val
    omega)
  have e2 : colOf ⟨4 * (t.val / 4) + s, hlt⟩ q = colOf t q := Fin.ext (by
    show 512 * ((4 * (t.val / 4) + s) / 4) + q.val = 512 * (t.val / 4) + q.val
    omega)
  rw [e1, e2]
  rfl

theorem tile_wt (c : Dev nD) (t : Fin cfg0.N) (s : ℕ) (hs : s < 4) (hlt : 4 * (t.val / 4) + s < cfg0.N)
    (p : Fin 256) (q : Fin 512) (hr : 256 * s + p.val < 1024) :
    wtOf (mblk m c ⟨4 * (t.val / 4) + s, hlt⟩ (ix4 (0 : Fin 1) (0 : Fin 1) p q))
      = wt (mkOf m c) ⟨256 * s + p.val, hr⟩ (colOf t q) := by
  rw [mblk_apply]
  show wtOf (mkOf m c (ix4 (0 : Fin 1) (0 : Fin 1) (rowOf ⟨4 * (t.val / 4) + s, hlt⟩ p) (colOf ⟨4 * (t.val / 4) + s, hlt⟩ q))) = _
  have e1 : rowOf ⟨4 * (t.val / 4) + s, hlt⟩ p = ⟨256 * s + p.val, hr⟩ := Fin.ext (by
    show 256 * ((4 * (t.val / 4) + s) % 4) + p.val = 256 * s + p.val
    omega)
  have e2 : colOf ⟨4 * (t.val / 4) + s, hlt⟩ q = colOf t q := Fin.ext (by
    show 512 * ((4 * (t.val / 4) + s) / 4) + q.val = 512 * (t.val / 4) + q.val
    omega)
  rw [e1, e2]
  rfl

/-- Row tile `s`'s epistemic contribution at column `q`: its 256 rows' divergences. -/
theorem epiM_apply (c : Dev nD) (t : Fin cfg0.N) (s : ℕ) (hs : s < 4) (q : Fin 512) :
    epiM m c (4 * (t.val / 4) + s) (ix2 (0 : Fin 1) q)
      = ∑ p : Fin 256, rowF (fun r => epiPix eps (px (lgOf m c) r (colOf t q))) (256 * s + p.val) := by
  have hN : cfg0.N = 8 := N_0
  have hlt : 4 * (t.val / 4) + s < cfg0.N := by have := t.isLt; omega
  unfold epiM
  rw [dif_pos hlt, epiLocal_apply]
  refine Finset.sum_congr rfl fun p _ => ?_
  have hr : 256 * s + p.val < 1024 := by have := p.isLt; omega
  unfold rowF
  rw [dif_pos hr, tile_px m c t s hs hlt p q hr]

/-- Row tile `s`'s aleatoric contribution at column `q`: its 256 rows' weighted negative log-likelihoods. -/
theorem aleM_apply (c : Dev nD) (t : Fin cfg0.N) (s : ℕ) (hs : s < 4) (q : Fin 512) :
    aleM m c (4 * (t.val / 4) + s) (ix2 (0 : Fin 1) q)
      = ∑ p : Fin 256, rowF (fun r => alePix eps (px (lgOf m c) r (colOf t q)) (wt (mkOf m c) r (colOf t q))) (256 * s + p.val) := by
  have hN : cfg0.N = 8 := N_0
  have hlt : 4 * (t.val / 4) + s < cfg0.N := by have := t.isLt; omega
  unfold aleM
  rw [dif_pos hlt, aleLocal_apply]
  refine Finset.sum_congr rfl fun p _ => ?_
  have hr : 256 * s + p.val < 1024 := by have := p.isLt; omega
  unfold rowF
  rw [dif_pos hr, tile_px m c t s hs hlt p q hr, tile_wt m c t s hs hlt p q hr]

/-- A writing point's epistemic block is the epistemic row at the point's columns. -/
theorem out2_row (c : Dev nD) (t : Fin cfg0.N) (h3 : t.val % 4 = 3) (q : Fin 512) :
    (outsAt0 m c t.val t.isLt).1 (ix2 (0 : Fin 1) q) = epiRow (lgOf m c) (ix2 (0 : Fin 1) (colOf t q)) := by
  rw [out2_apply m c t h3, zero_add,
    Finset.sum_congr rfl (fun s hs => epiM_apply m c t s (Finset.mem_range.mp hs) q), sum_rowF]
  rfl

/-- A writing point's aleatoric block is the aleatoric row at the point's columns. -/
theorem out3_row (c : Dev nD) (t : Fin cfg0.N) (h3 : t.val % 4 = 3) (q : Fin 512) :
    (outsAt0 m c t.val t.isLt).2.1 (ix2 (0 : Fin 1) q) = aleRow (lgOf m c) (mkOf m c) (ix2 (0 : Fin 1) (colOf t q)) := by
  rw [out3_apply m c t h3, zero_add,
    Finset.sum_congr rfl (fun s hs => aleM_apply m c t s (Finset.mem_range.mp hs) q), sum_rowF]
  rfl

/-- Every index of a `[1, 512]` block is `(0, q)`. -/
theorem idx_1x512 (y : S1x512.Idx) : y = ix2 (0 : Fin 1) (y 1) := by
  have h0 : y 0 = (0 : Fin 1) := Fin.ext (by have h : (y 0).val < 1 := (y 0).isLt; show (y 0).val = 0; omega)
  have h := eq_ix2 y
  rw [h0] at h
  exact h

/-- What a writing point writes back of the epistemic output is the epistemic row read through its block. -/
theorem flushed2 (c : Dev nD) (t : Fin cfg0.N) (hf : (cfg0.win 2).flush t = true) :
    (dats m 0 c).flushed 2 t = ((cfg0.win 2).blk t).view.read (Elt Ideal) (epiRow (lgOf m c)) := by
  have h3 : t.val % 4 = 3 := (flush0_2 t).mp hf
  refine (flushed2_eq (dats m 0 c) t).trans ?_
  rw [after0_2, read_out2]
  funext y
  rw [idx_1x512 y]
  exact out2_row m c t h3 (y 1)

/-- What a writing point writes back of the aleatoric output is the aleatoric row read through its block. -/
theorem flushed3 (c : Dev nD) (t : Fin cfg0.N) (hf : (cfg0.win 3).flush t = true) :
    (dats m 0 c).flushed 3 t = ((cfg0.win 3).blk t).view.read (Elt Ideal) (aleRow (lgOf m c) (mkOf m c)) := by
  have h3 : t.val % 4 = 3 := (flush0_3 t).mp hf
  refine (flushed3_eq (dats m 0 c) t).trans ?_
  rw [after0_3, read_out3]
  funext y
  rw [idx_1x512 y]
  exact out3_row m c t h3 (y 1)

/-- The epistemic output after the run. -/
theorem final2 (c : Dev nD) : (dats m 0 c).arrAt 2 cfg0.N = epiRow (lgOf m c) :=
  (dats m 0 c).arrAt_eq_of_cover 2 (epiRow (lgOf m c)) (flushed2 m c) cover2

/-- The aleatoric output after the run. -/
theorem final3 (c : Dev nD) : (dats m 0 c).arrAt 3 cfg0.N = aleRow (lgOf m c) (mkOf m c) :=
  (dats m 0 c).arrAt_eq_of_cover 3 (aleRow (lgOf m c) (mkOf m c)) (flushed3 m c) cover3

/-- The host lines after the region: the aleatoric row summed from zero, spread over the row, plus the epistemic row. -/
theorem tail_eq (c : Dev nD) :
    Pipeline.afterTail₀ cfgs (dats m) 0 (V0 m) [hostOps1] c main_v3 = G (lgOf m c) (mkOf m c) := by
  have e3 : Pipeline.withArrays (cfgs 0).spec c (V0 m c) (fun w => (dats m 0 c).arrAt w (cfgs 0).N) (Proc.devRef .tc main_v0_1)
      = aleRow (lgOf m c) (mkOf m c) :=
    (Pipeline.withArrays_arr spec0 launch0.win.arr_inj c _ _ 3).trans (final3 m c)
  have e2 : Pipeline.withArrays (cfgs 0).spec c (V0 m c) (fun w => (dats m 0 c).arrAt w (cfgs 0).N) (Proc.devRef .tc main_v0_0)
      = epiRow (lgOf m c) :=
    (Pipeline.withArrays_arr spec0 launch0.win.arr_inj c _ _ 2).trans (final2 m c)
  unfold Pipeline.afterTail₀
  show StableHlo.after hostOps1 _ (Proc.devRef .tc main_v3) = _
  after_results
  rw [e3, e2]
  funext o
  show (broadcastInDim S1x1024 ![] bcast_S_S1x1024
      (Host.reduceAdd (F := Ideal) (aleRow (lgOf m c) (mkOf m c)) (constant S_ .f32 0x00000000#32) reducesTo_S1x1024_S_d0_1 h_S_)) o
      + epiRow (lgOf m c) o = _
  rw [broadcastInDim_apply _ bcast_S_S1x1024 _ o ix0 (fun a => a.elim0)]
  simp only [Host.reduceAdd, Ideal.hostReduceAdd_def]
  rw [Ideal.hostReduceAdd_total reducesTo_S1x1024_S_d0_1 (fun b => b.elim0) _ _ ix0]
  show (Ideal.ofBits .f32 0x00000000#32 + ∑ o' : S1x1024.Idx, aleRow (lgOf m c) (mkOf m c) o') + epiRow (lgOf m c) o = _
  rw [ofBits_zero]
  rfl

/-- THE KERNEL'S RUN, READ: every weakly fair execution terminates with the result at `G` of the two arguments and the
    arguments unchanged. -/
theorem run : θ_run defs (onTc (τ := τ) (main (F := Ideal))) ⟨m, fun _ => 0, ρ⟩ fun r => ∀ c : Dev nD,
      r.2.mem ((c.tc : Thread nD τ).loc main_v3) = G (lgOf m c) (mkOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefRunH.lean ====
/-
  The reference's @main, evaluated stretch by stretch.

  @main is a straight line of 69 host operations.  Cut after the operations that write `%16` (the logarithm of the smoothed
  probability), `%23` (the aleatoric mean), `%24` (the log-softmax) and `%34` (the divergence term), at most three
  computed values are live across each cut.  Each stretch, run from ANY buffer contents `W` that hold the live values
  at their stages, leaves the values live after it at theirs: the stages are the one-operation-at-a-time functions
  `val_…` of the two arguments, so inside a stretch every operation's result is its stage by one unfolding.
-/
import proofs.«414774_j22763326668833_3_alg».proof.Proof.RefRead
import Idealize.ShloMosaic.Lib.StableHlo.Run

noncomputable section

namespace Cert.ReferenceIdeal.RunH

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Operations 1–22: the weight, the maximum, the softmax and `log (p + ε)`. -/
abbrev ops1 : List (HloOp τ sig (Elt F)) :=
  [ nullary main_c (constantI S_ 32 255#32),
    unary main_c main_v0 (broadcastInDim S1x1x1024x1024 ![] bcast_S_S1x1x1024x1024 : (⟨S_, .i32⟩ : BufTy).Contents (Elt F) → (⟨S1x1x1024x1024, .i32⟩ : BufTy).Contents (Elt F)),
    binary main_arg1 main_v0 main_v1 (cmpi .ne : (⟨S1x1x1024x1024, .i32⟩ : BufTy).Contents (Elt F) → (⟨S1x1x1024x1024, .i32⟩ : BufTy).Contents (Elt F) → (⟨S1x1x1024x1024, .i1⟩ : BufTy).Contents (Elt F)),
    unary main_v1 main_v2 (uitofp .f32 : (⟨S1x1x1024x1024, .i1⟩ : BufTy).Contents (Elt F) → (⟨S1x1x1024x1024, .f32⟩ : BufTy).Contents (Elt F)),
    nullary main_cst (constant S_ .f32 0xFF800000#32),
    binary main_arg0 main_cst main_v3 ((fun x v => Host.reduce FloatOps.maximumf x v reducesTo_S1x21x1024x1024_S1x1024x1024_d1 h_S_) : (⟨S1x21x1024x1024, .f32⟩ : BufTy).Contents (Elt F) → (⟨S_, .f32⟩ : BufTy).Contents (Elt F) → (⟨S1x1024x1024, .f32⟩ : BufTy).Contents (Elt F)),
    nullary main_cst_0 (constant S_ .f32 0xFF800000#32),
    unary main_cst_0 main_v4 (broadcastInDim S1x1024x1024 ![] bcast_S_S1x1024x1024 : (⟨S_, .f32⟩ : BufTy).Contents (Elt F) → (⟨S1x1024x1024, .f32⟩ : BufTy).Contents (Elt F)),
    binary main_v4 main_v3 main_v5 (maximumf : (⟨S1x1024x1024, .f32⟩ : BufTy).Contents (Elt F) → (⟨S1x1024x1024, .f32⟩ : BufTy).Contents (Elt F) → (⟨S1x1024x1024, .f32⟩ : BufTy).Contents (Elt F)),
    unary main_v5 main_v6 (broadcastInDim S1x1x1024x1024 ![0, 2, 3] bcast_S1x1024x1024_S1x1x1024x1024_0_2_3 : (⟨S1x1024x1024, .f32⟩ : BufTy).Contents (Elt F) → (⟨S1x1x1024x1024, .f32⟩ : BufTy).Contents (Elt F)),
    unary main_v6 main_v7 (broadcastInDim S1x21x1024x1024 ![0, 1, 2, 3] bcast_S1x1x1024x1024_S1x21x1024x1024_0_1_2_3 : (⟨S1x1x1024x1024, .f32⟩ : BufTy).Contents (Elt F) → (⟨S1x21x1024x1024, .f32⟩ : BufTy).Contents (Elt F)),
    binary main_arg0 main_v7 main_v8 (subf : (⟨S1x21x1024x1024, .f32⟩ : BufTy).Contents (Elt F) → (⟨S1x21x1024x1024, .f32⟩ : BufTy).Contents (Elt F) → (⟨S1x21x1024x1024, .f32⟩ : BufTy).Contents (Elt F)),
    unary main_v8 main_v9 (Host.exp : (⟨S1x21x1024x1024, .f32⟩ : BufTy).Contents (Elt F) → (⟨S1x21x1024x1024, .f32⟩ : BufTy).Contents (Elt F)),
    nullary main_cst_1 (constant S_ .f32 0x00000000#32),
    binary main_v9 main_cst_1 main_v10 ((fun x v => Host.reduceAdd x v reducesTo_S1x21x1024x1024_S1x1024x1024_d1 h_S_) : (⟨S1x21x1024x1024, .f32⟩ : BufTy).Contents (Elt F) → (⟨S_, .f32⟩ : BufTy).Contents (Elt F) → (⟨S1x1024x1024, .f32⟩ : BufTy).Contents (Elt F)),
    unary main_v10 main_v11 (broadcastInDim S1x1x1024x1024 ![0, 2, 3] bcast_S1x1024x1024_S1x1x1024x1024_0_2_3 : (⟨S1x1024x1024, .f32⟩ : BufTy).Contents (Elt F) → (⟨S1x1x1024x1024, .f32⟩ : BufTy).Contents (Elt F)),
    unary main_v11 main_v12 (broadcastInDim S1x21x1024x1024 ![0, 1, 2, 3] bcast_S1x1x1024x1024_S1x21x1024x1024_0_1_2_3 : (⟨S1x1x1024x1024, .f32⟩ : BufTy).Contents (Elt F) → (⟨S1x21x1024x1024, .f32⟩ : BufTy).Contents (Elt F)),
    binary main_v9 main_v12 main_v13 (Host.divf : (⟨S1x21x1024x1024, .f32⟩ : BufTy).Contents (Elt F) → (⟨S1x21x1024x1024, .f32⟩ : BufTy).Contents (Elt F) → (⟨S1x21x1024x1024, .f32⟩ : BufTy).Contents (Elt F)),
    nullary main_cst_2 (constant S_ .f32 0x2EDBE6FF#32),
    unary main_cst_2 main_v14 (broadcastInDim S1x21x1024x1024 ![] bcast_S_S1x21x1024x1024 : (⟨S_, .f32⟩ : BufTy).Contents (Elt F) → (⟨S1x21x1024x1024, .f32⟩ : BufTy).Contents (Elt F)),
    binary main_v13 main_v14 main_v15 (addf : (⟨S1x21x1024x1024, .f32⟩ : BufTy).Contents (Elt F) → (⟨S1x21x1024x1024, .f32⟩ : BufTy).Contents (Elt F) → (⟨S1x21x1024x1024, .f32⟩ : BufTy).Contents (Elt F)),
    unary main_v15 main_v16 (Host.log : (⟨S1x21x1024x1024, .f32⟩ : BufTy).Contents (Elt F) → (⟨S1x21x1024x1024, .f32⟩ : BufTy).Contents (Elt F)) ]

/-- Operations 23–32: the weighted negative log-likelihood and its mean over the image. -/
abbrev ops2 : List (HloOp τ sig (Elt F)) :=
  [ unary main_v2 main_v17 (Host.negf : (⟨S1x1x1024x1024, .f32⟩ : BufTy).Contents (Elt F) → (⟨S1x1x1024x1024, .f32⟩ : BufTy).Contents (Elt F)),
    unary main_v17 main_v18 (broadcastInDim S1x21x1024x1024 ![0, 1, 2, 3] bcast_S1x1x1024x1024_S1x21x1024x1024_0_1_2_3 : (⟨S1x1x1024x1024, .f32⟩ : BufTy).Contents (Elt F) → (⟨S1x21x1024x1024, .f32⟩ : BufTy).Contents (Elt F)),
    binary main_v18 main_v16 main_v19 (mulf : (⟨S1x21x1024x1024, .f32⟩ : BufTy).Contents (Elt F) → (⟨S1x21x1024x1024, .f32⟩ : BufTy).Contents (Elt F) → (⟨S1x21x1024x1024, .f32⟩ : BufTy).Contents (Elt F)),
    nullary main_cst_3 (constant S_ .f32 0x00000000#32),
    binary main_v19 main_cst_3 main_v20 ((fun x v => Host.reduceAdd x v reducesTo_S1x21x1024x1024_S1x1024x1024_d1 h_S_) : (⟨S1x21x1024x1024, .f32⟩ : BufTy).Contents (Elt F) → (⟨S_, .f32⟩ : BufTy).Contents (Elt F) → (⟨S1x1024x1024, .f32⟩ : BufTy).Contents (Elt F)),
    nullary main_cst_4 (constant S_ .f32 0x00000000#32),
    binary main_v20 main_cst_4 main_v21 ((fun x v => Host.reduceAdd x v reducesTo_S1x1024x1024_S1_d1_2 h_S_) : (⟨S1x1024x1024, .f32⟩ : BufTy).Contents (Elt F) → (⟨S_, .f32⟩ : BufTy).Contents (Elt F) → (⟨S1, .f32⟩ : BufTy).Contents (Elt F)),
    nullary main_cst_5 (constant S_ .f32 0x49800000#32),
    unary main_cst_5 main_v22 (broadcastInDim S1 ![] bcast_S_S1 : (⟨S_, .f32⟩ : BufTy).Contents (Elt F) → (⟨S1, .f32⟩ : BufTy).Contents (Elt F)),
    binary main_v21 main_v22 main_v23 (Host.divf : (⟨S1, .f32⟩ : BufTy).Contents (Elt F) → (⟨S1, .f32⟩ : BufTy).Contents (Elt F) → (⟨S1, .f32⟩ : BufTy).Contents (Elt F)) ]

/-- Operations 33–47: the log-softmax (the inlined function's fifteen operations). -/
abbrev ops3 : List (HloOp τ sig (Elt F)) :=
  [ TRef.nullary (TRef.of (T := ⟨S_, .f32⟩) main_call0_cst) (constant S_ .f32 0xFF800000#32),
    TRef.binary (TRef.of (T := ⟨S1x21x1024x1024, .f32⟩) main_arg0) (TRef.of (T := ⟨S_, .f32⟩) main_call0_cst) (TRef.of (T := ⟨S1x1024x1024, .f32⟩) main_call0_v0) (fun x v => Host.reduce FloatOps.maximumf x v reducesTo_S1x21x1024x1024_S1x1024x1024_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S1x1024x1024, .f32⟩) main_call0_v1) (broadcastInDim S1x1024x1024 ![] bcast_S_S1x1024x1024),
    TRef.binary (TRef.of (T := ⟨S1x1024x1024, .f32⟩) main_call0_v1) (TRef.of (T := ⟨S1x1024x1024, .f32⟩) main_call0_v0) (TRef.of (T := ⟨S1x1024x1024, .f32⟩) main_call0_v2) maximumf,
    TRef.unary (TRef.of (T := ⟨S1x1024x1024, .f32⟩) main_call0_v2) (TRef.of (T := ⟨S1x1x1024x1024, .f32⟩) main_call0_v3) (broadcastInDim S1x1x1024x1024 ![0, 2, 3] bcast_S1x1024x1024_S1x1x1024x1024_0_2_3),
    TRef.unary (TRef.of (T := ⟨S1x1x1024x1024, .f32⟩) main_call0_v3) (TRef.of (T := ⟨S1x21x1024x1024, .f32⟩) main_call0_v4) (broadcastInDim S1x21x1024x1024 ![0, 1, 2, 3] bcast_S1x1x1024x1024_S1x21x1024x1024_0_1_2_3),
    TRef.binary (TRef.of (T := ⟨S1x21x1024x1024, .f32⟩) main_arg0) (TRef.of (T := ⟨S1x21x1024x1024, .f32⟩) main_call0_v4) (TRef.of (T := ⟨S1x21x1024x1024, .f32⟩) main_call0_v5) subf,
    TRef.unary (TRef.of (T := ⟨S1x21x1024x1024, .f32⟩) main_call0_v5) (TRef.of (T := ⟨S1x21x1024x1024, .f32⟩) main_call0_v6) Host.exp,
    TRef.nullary (TRef.of (T := ⟨S_, .f32⟩) main_call0_cst_1) (constant S_ .f32 0x00000000#32),
    TRef.binary (TRef.of (T := ⟨S1x21x1024x1024, .f32⟩) main_call0_v6) (TRef.of (T := ⟨S_, .f32⟩) main_call0_cst_1) (TRef.of (T := ⟨S1x1024x1024, .f32⟩) main_call0_v7) (fun x v => Host.reduceAdd x v reducesTo_S1x21x1024x1024_S1x1024x1024_d1 h_S_),
    TRef.unary (TRef.of (T := ⟨S1x1024x1024, .f32⟩) main_call0_v7) (TRef.of (T := ⟨S1x1x1024x1024, .f32⟩) main_call0_v8) (broadcastInDim S1x1x1024x1024 ![0, 2, 3] bcast_S1x1024x1024_S1x1x1024x1024_0_2_3),
    TRef.unary (TRef.of (T := ⟨S1x1x1024x1024, .f32⟩) main_call0_v8) (TRef.of (T := ⟨S1x1x1024x1024, .f32⟩) main_call0_v9) Host.log,
    TRef.unary (TRef.of (T := ⟨S1x1x1024x1024, .f32⟩) main_call0_v9) (TRef.of (T := ⟨S1x21x1024x1024, .f32⟩) main_call0_v10) (broadcastInDim S1x21x1024x1024 ![0, 1, 2, 3] bcast_S1x1x1024x1024_S1x21x1024x1024_0_1_2_3),
    TRef.binary (TRef.of (T := ⟨S1x21x1024x1024, .f32⟩) main_call0_v5) (TRef.of (T := ⟨S1x21x1024x1024, .f32⟩) main_call0_v10) (TRef.of (T := ⟨S1x21x1024x1024, .f32⟩) main_v24) subf ]

/-- Operations 48–59: `ℓ log ℓ` with its guard, and the divergence term. -/
abbrev ops4 : List (HloOp τ sig (Elt F)) :=
  [ nullary main_cst_6 (constant S_ .f32 0x00000000#32),
    unary main_cst_6 main_v25 (broadcastInDim S1x21x1024x1024 ![] bcast_S_S1x21x1024x1024 : (⟨S_, .f32⟩ : BufTy).Contents (Elt F) → (⟨S1x21x1024x1024, .f32⟩ : BufTy).Contents (Elt F)),
    binary main_v24 main_v25 main_v26 (cmpf .une : (⟨S1x21x1024x1024, .f32⟩ : BufTy).Contents (Elt F) → (⟨S1x21x1024x1024, .f32⟩ : BufTy).Contents (Elt F) → (⟨S1x21x1024x1024, .i1⟩ : BufTy).Contents (Elt F)),
    binary main_v24 main_v24 main_v27 (cmpf .une : (⟨S1x21x1024x1024, .f32⟩ : BufTy).Contents (Elt F) → (⟨S1x21x1024x1024, .f32⟩ : BufTy).Contents (Elt F) → (⟨S1x21x1024x1024, .i1⟩ : BufTy).Contents (Elt F)),
    binary main_v26 main_v27 main_v28 (ori : (⟨S1x21x1024x1024, .i1⟩ : BufTy).Contents (Elt F) → (⟨S1x21x1024x1024, .i1⟩ : BufTy).Contents (Elt F) → (⟨S1x21x1024x1024, .i1⟩ : BufTy).Contents (Elt F)),
    unary main_v24 main_v29 (Host.log : (⟨S1x21x1024x1024, .f32⟩ : BufTy).Contents (Elt F) → (⟨S1x21x1024x1024, .f32⟩ : BufTy).Contents (Elt F)),
    binary main_v24 main_v29 main_v30 (mulf : (⟨S1x21x1024x1024, .f32⟩ : BufTy).Contents (Elt F) → (⟨S1x21x1024x1024, .f32⟩ : BufTy).Contents (Elt F) → (⟨S1x21x1024x1024, .f32⟩ : BufTy).Contents (Elt F)),
    nullary main_cst_7 (constant S_ .f32 0x00000000#32),
    unary main_cst_7 main_v31 (broadcastInDim S1x21x1024x1024 ![] bcast_S_S1x21x1024x1024 : (⟨S_, .f32⟩ : BufTy).Contents (Elt F) → (⟨S1x21x1024x1024, .f32⟩ : BufTy).Contents (Elt F)),
    TRef.ternary (TRef.of (T := ⟨S1x21x1024x1024, .i1⟩) main_v28) (TRef.of (T := ⟨S1x21x1024x1024, .f32⟩) main_v30) (TRef.of (T := ⟨S1x21x1024x1024, .f32⟩) main_v31) (TRef.of (T := ⟨S1x21x1024x1024, .f32⟩) main_v32) select,
    binary main_v24 main_v16 main_v33 (mulf : (⟨S1x21x1024x1024, .f32⟩ : BufTy).Contents (Elt F) → (⟨S1x21x1024x1024, .f32⟩ : BufTy).Contents (Elt F) → (⟨S1x21x1024x1024, .f32⟩ : BufTy).Contents (Elt F)),
    binary main_v32 main_v33 main_v34 (subf : (⟨S1x21x1024x1024, .f32⟩ : BufTy).Contents (Elt F) → (⟨S1x21x1024x1024, .f32⟩ : BufTy).Contents (Elt F) → (⟨S1x21x1024x1024, .f32⟩ : BufTy).Contents (Elt F)) ]

/-- Operations 60–69: the divergence summed over channels and rows, its mean, and the final sum. -/
abbrev ops5 : List (HloOp τ sig (Elt F)) :=
  [ nullary main_cst_8 (constant S_ .f32 0x00000000#32),
    binary main_v34 main_cst_8 main_v35 ((fun x v => Host.reduceAdd x v reducesTo_S1x21x1024x1024_S1x1024x1024_d1 h_S_) : (⟨S1x21x1024x1024, .f32⟩ : BufTy).Contents (Elt F) → (⟨S_, .f32⟩ : BufTy).Contents (Elt F) → (⟨S1x1024x1024, .f32⟩ : BufTy).Contents (Elt F)),
    nullary main_cst_9 (constant S_ .f32 0x00000000#32),
    binary main_v35 main_cst_9 main_v36 ((fun x v => Host.reduceAdd x v reducesTo_S1x1024x1024_S1x1024_d1 h_S_) : (⟨S1x1024x1024, .f32⟩ : BufTy).Contents (Elt F) → (⟨S_, .f32⟩ : BufTy).Contents (Elt F) → (⟨S1x1024, .f32⟩ : BufTy).Contents (Elt F)),
    nullary main_cst_10 (constant S_ .f32 0x44800000#32),
    unary main_cst_10 main_v37 (broadcastInDim S1x1024 ![] bcast_S_S1x1024 : (⟨S_, .f32⟩ : BufTy).Contents (Elt F) → (⟨S1x1024, .f32⟩ : BufTy).Contents (Elt F)),
    binary main_v36 main_v37 main_v38 (Host.divf : (⟨S1x1024, .f32⟩ : BufTy).Contents (Elt F) → (⟨S1x1024, .f32⟩ : BufTy).Contents (Elt F) → (⟨S1x1024, .f32⟩ : BufTy).Contents (Elt F)),
    unary main_v23 main_v39 (broadcastInDim S1x1 ![1] bcast_S1_S1x1_1 : (⟨S1, .f32⟩ : BufTy).Contents (Elt F) → (⟨S1x1, .f32⟩ : BufTy).Contents (Elt F)),
    unary main_v39 main_v40 (broadcastInDim S1x1024 ![0, 1] bcast_S1x1_S1x1024_0_1 : (⟨S1x1, .f32⟩ : BufTy).Contents (Elt F) → (⟨S1x1024, .f32⟩ : BufTy).Contents (Elt F)),
    binary main_v40 main_v38 main_v41 (addf : (⟨S1x1024, .f32⟩ : BufTy).Contents (Elt F) → (⟨S1x1024, .f32⟩ : BufTy).Contents (Elt F) → (⟨S1x1024, .f32⟩ : BufTy).Contents (Elt F)) ]

/-- Two lines run one after the other leave what the second leaves from what the first left. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

/-! ## The inlined functions' typed references

The operations of the two inlined functions are stated over references that carry their tensor type, and move contents to
the buffer's own type and back.  Between two consecutive operations the two moves meet on one reference and cancel; at a
literal buffer a single move is the identity. -/

/-- Contents moved to a typed reference's buffer and back are the contents. -/
theorem ofBuf_toBuf {T : BufTy} (x : TRef sig T) (v : T.Contents (Elt F)) : x.ofBuf (x.toBuf v) = v := by
  obtain ⟨r, rfl, _, _⟩ := x
  rfl

theorem ofBuf_arg0 (z : (⟨S1x21x1024x1024, .f32⟩ : BufTy).Contents (Elt F)) :
    (TRef.of (T := ⟨S1x21x1024x1024, .f32⟩) main_arg0).ofBuf z = z := rfl
theorem toBuf_v24 (z : (⟨S1x21x1024x1024, .f32⟩ : BufTy).Contents (Elt F)) :
    (TRef.of (T := ⟨S1x21x1024x1024, .f32⟩) main_v24).toBuf z = z := rfl
theorem ofBuf_v28 (z : (⟨S1x21x1024x1024, .i1⟩ : BufTy).Contents (Elt F)) :
    (TRef.of (T := ⟨S1x21x1024x1024, .i1⟩) main_v28).ofBuf z = z := rfl
theorem ofBuf_v30 (z : (⟨S1x21x1024x1024, .f32⟩ : BufTy).Contents (Elt F)) :
    (TRef.of (T := ⟨S1x21x1024x1024, .f32⟩) main_v30).ofBuf z = z := rfl
theorem ofBuf_v31 (z : (⟨S1x21x1024x1024, .f32⟩ : BufTy).Contents (Elt F)) :
    (TRef.of (T := ⟨S1x21x1024x1024, .f32⟩) main_v31).ofBuf z = z := rfl
theorem toBuf_v32 (z : (⟨S1x21x1024x1024, .f32⟩ : BufTy).Contents (Elt F)) :
    (TRef.of (T := ⟨S1x21x1024x1024, .f32⟩) main_v32).toBuf z = z := rfl

set_option maxRecDepth 8192 in
set_option maxHeartbeats 4000000 in
/-- Stretch 1, from contents holding the two arguments: it leaves `log (p + ε)` and the weight at their stages. -/
theorem stretch1 (W : Valuation τ sig (Elt F)) (x0 : (⟨S1x21x1024x1024, .f32⟩ : BufTy).Contents (Elt F)) (x1 : (⟨S1x1x1024x1024, .i32⟩ : BufTy).Contents (Elt F))
    (h0 : W (Proc.devRef .tc main_arg0) = x0) (h1 : W (Proc.devRef .tc main_arg1) = x1) :
    after ops1 W (Proc.devRef .tc main_v16) = val_main_v16 (F := F) x0
    ∧ after ops1 W (Proc.devRef .tc main_v2) = val_main_v2 (F := F) x1
    ∧ after ops1 W (Proc.devRef .tc main_arg0) = x0
    ∧ after ops1 W (Proc.devRef .tc main_arg1) = x1 := by
  subst h0 h1
  refine ⟨?_, ?_, ?_, ?_⟩
  · after_results; rfl
  · after_results; rfl
  · after_results
  · after_results

set_option maxRecDepth 8192 in
set_option maxHeartbeats 4000000 in
/-- Stretch 2: from the weight and `log (p + ε)` it leaves the aleatoric mean at its stage. -/
theorem stretch2 (W : Valuation τ sig (Elt F)) (x0 : (⟨S1x21x1024x1024, .f32⟩ : BufTy).Contents (Elt F)) (x1 : (⟨S1x1x1024x1024, .i32⟩ : BufTy).Contents (Elt F))
    (h16 : W (Proc.devRef .tc main_v16) = val_main_v16 (F := F) x0) (h2 : W (Proc.devRef .tc main_v2) = val_main_v2 (F := F) x1)
    (h0 : W (Proc.devRef .tc main_arg0) = x0) (h1 : W (Proc.devRef .tc main_arg1) = x1) :
    after ops2 W (Proc.devRef .tc main_v23) = val_main_v23 (F := F) x0 x1
    ∧ after ops2 W (Proc.devRef .tc main_v16) = val_main_v16 (F := F) x0
    ∧ after ops2 W (Proc.devRef .tc main_arg0) = x0
    ∧ after ops2 W (Proc.devRef .tc main_arg1) = x1 := by
  refine ⟨?_, ?_, ?_, ?_⟩
  · after_results; rw [h2, h16]; rfl
  · after_results; exact h16
  · after_results; exact h0
  · after_results; exact h1

set_option maxRecDepth 8192 in
set_option maxHeartbeats 4000000 in
/-- Stretch 3: from the logits it leaves the log-softmax at its stage. -/
theorem stretch3 (W : Valuation τ sig (Elt F)) (x0 : (⟨S1x21x1024x1024, .f32⟩ : BufTy).Contents (Elt F)) (x1 : (⟨S1x1x1024x1024, .i32⟩ : BufTy).Contents (Elt F))
    (h0 : W (Proc.devRef .tc main_arg0) = x0) (h16 : W (Proc.devRef .tc main_v16) = val_main_v16 (F := F) x0)
    (h23 : W (Proc.devRef .tc main_v23) = val_main_v23 (F := F) x0 x1) (h1 : W (Proc.devRef .tc main_arg1) = x1) :
    after ops3 W (Proc.devRef .tc main_v24) = val_main_v24 (F := F) x0
    ∧ after ops3 W (Proc.devRef .tc main_v16) = val_main_v16 (F := F) x0
    ∧ after ops3 W (Proc.devRef .tc main_v23) = val_main_v23 (F := F) x0 x1
    ∧ after ops3 W (Proc.devRef .tc main_arg0) = x0
    ∧ after ops3 W (Proc.devRef .tc main_arg1) = x1 := by
  refine ⟨?_, ?_, ?_, ?_, ?_⟩
  · after_results; rw [h0]; simp only [ofBuf_toBuf, toBuf_v24, ofBuf_arg0]; rfl
  · after_results; exact h16
  · after_results; exact h23
  · after_results; exact h0
  · after_results; exact h1

set_option maxRecDepth 8192 in
set_option maxHeartbeats 4000000 in
/-- Stretch 4: from the log-softmax and `log (p + ε)` it leaves the divergence term at its stage. -/
theorem stretch4 (W : Valuation τ sig (Elt F)) (x0 : (⟨S1x21x1024x1024, .f32⟩ : BufTy).Contents (Elt F)) (x1 : (⟨S1x1x1024x1024, .i32⟩ : BufTy).Contents (Elt F))
    (h24 : W (Proc.devRef .tc main_v24) = val_main_v24 (F := F) x0) (h16 : W (Proc.devRef .tc main_v16) = val_main_v16 (F := F) x0)
    (h23 : W (Proc.devRef .tc main_v23) = val_main_v23 (F := F) x0 x1)
    (h0 : W (Proc.devRef .tc main_arg0) = x0) (h1 : W (Proc.devRef .tc main_arg1) = x1) :
    after ops4 W (Proc.devRef .tc main_v34) = val_main_v34 (F := F) x0
    ∧ after ops4 W (Proc.devRef .tc main_v23) = val_main_v23 (F := F) x0 x1
    ∧ after ops4 W (Proc.devRef .tc main_arg0) = x0
    ∧ after ops4 W (Proc.devRef .tc main_arg1) = x1 := by
  refine ⟨?_, ?_, ?_, ?_⟩
  · after_results; rw [h24, h16]; simp only [toBuf_v32, ofBuf_v28, ofBuf_v30, ofBuf_v31]; rfl
  · after_results; exact h23
  · after_results; exact h0
  · after_results; exact h1

set_option maxRecDepth 8192 in
set_option maxHeartbeats 4000000 in
/-- Stretch 5: from the divergence term and the aleatoric mean it leaves the result at its stage. -/
theorem stretch5 (W : Valuation τ sig (Elt F)) (x0 : (⟨S1x21x1024x1024, .f32⟩ : BufTy).Contents (Elt F)) (x1 : (⟨S1x1x1024x1024, .i32⟩ : BufTy).Contents (Elt F))
    (h34 : W (Proc.devRef .tc main_v34) = val_main_v34 (F := F) x0) (h23 : W (Proc.devRef .tc main_v23) = val_main_v23 (F := F) x0 x1)
    (h0 : W (Proc.devRef .tc main_arg0) = x0) (h1 : W (Proc.devRef .tc main_arg1) = x1) :
    after ops5 W (Proc.devRef .tc main_v41) = val_main_v41 (F := F) x0 x1
    ∧ after ops5 W (Proc.devRef .tc main_arg0) = x0
    ∧ after ops5 W (Proc.devRef .tc main_arg1) = x1 := by
  refine ⟨?_, ?_, ?_⟩
  · after_results; rw [h34, h23]; rfl
  · after_results; exact h0
  · after_results; exact h1

/-! ## The whole line -/

/-- @main's 69 operations: the five stretches in order. -/
abbrev ops : List (HloOp τ sig (Elt F)) := ops1 ++ (ops2 ++ (ops3 ++ (ops4 ++ ops5)))

/-- From contents holding the two arguments, the whole line leaves the result at its stage and the arguments as they were. -/
theorem eval (W : Valuation τ sig (Elt F)) (x0 : (⟨S1x21x1024x1024, .f32⟩ : BufTy).Contents (Elt F)) (x1 : (⟨S1x1x1024x1024, .i32⟩ : BufTy).Contents (Elt F))
    (h0 : W (Proc.devRef .tc main_arg0) = x0) (h1 : W (Proc.devRef .tc main_arg1) = x1) :
    after ops W (Proc.devRef .tc main_v41) = val_main_v41 (F := F) x0 x1
    ∧ after ops W (Proc.devRef .tc main_arg0) = x0
    ∧ after ops W (Proc.devRef .tc main_arg1) = x1 := by
  obtain ⟨a16, a2, a0, a1⟩ := stretch1 W x0 x1 h0 h1
  obtain ⟨b23, b16, b0, b1⟩ := stretch2 (after ops1 W) x0 x1 a16 a2 a0 a1
  obtain ⟨c24, c16, c23, c0, c1⟩ := stretch3 (after ops2 (after ops1 W)) x0 x1 b0 b16 b23 b1
  obtain ⟨d34, d23, d0, d1⟩ := stretch4 (after ops3 (after ops2 (after ops1 W))) x0 x1 c24 c16 c23 c0 c1
  show after (ops1 ++ (ops2 ++ (ops3 ++ (ops4 ++ ops5)))) W _ = _ ∧ after (ops1 ++ (ops2 ++ (ops3 ++ (ops4 ++ ops5)))) W _ = _
    ∧ after (ops1 ++ (ops2 ++ (ops3 ++ (ops4 ++ ops5)))) W _ = _
  rw [after_append, after_append, after_append, after_append]
  exact stretch5 _ x0 x1 d34 d23 d0 d1

theorem forall_append {α : Type} (p : α → Prop) (l₁ l₂ : List α) (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

theorem ops1_sub : (ops1 : List (HloOp τ sig (Elt F))).Forall fun op => op.bufs ⊆ tcRefs τ sig :=
  ⟨nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub ..⟩
theorem ops2_sub : (ops2 : List (HloOp τ sig (Elt F))).Forall fun op => op.bufs ⊆ tcRefs τ sig :=
  ⟨unary_bufs_sub .., unary_bufs_sub .., binary_bufs_sub .., nullary_bufs_sub .., binary_bufs_sub .., nullary_bufs_sub .., binary_bufs_sub .., nullary_bufs_sub .., unary_bufs_sub .., binary_bufs_sub ..⟩
theorem ops3_sub : (ops3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops4_sub : (ops4 : List (HloOp τ sig (Elt F))).Forall fun op => op.bufs ⊆ tcRefs τ sig :=
  ⟨nullary_bufs_sub .., unary_bufs_sub .., binary_bufs_sub .., binary_bufs_sub .., binary_bufs_sub .., unary_bufs_sub .., binary_bufs_sub .., nullary_bufs_sub .., unary_bufs_sub .., ternary_bufs_sub .., binary_bufs_sub .., binary_bufs_sub ..⟩
theorem ops5_sub : (ops5 : List (HloOp τ sig (Elt F))).Forall fun op => op.bufs ⊆ tcRefs τ sig :=
  ⟨nullary_bufs_sub .., binary_bufs_sub .., nullary_bufs_sub .., binary_bufs_sub .., nullary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  forall_append _ _ _ ops1_sub (forall_append _ _ _ ops2_sub (forall_append _ _ _ ops3_sub (forall_append _ _ _ ops4_sub ops5_sub)))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- THE REFERENCE'S RUN: on every device, for any float values, from any memory with zero counters, every weakly fair
    execution of @main terminates with the result at its stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
        = val_main_v41 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have key := eval (F := F) (fun b => m (c, b)) (m ((c.tc : Thread nD τ).loc main_arg0)) (m ((c.tc : Thread nD τ).loc main_arg1)) rfl rfl
      ⟨(h c main_v41).trans key.1, (h c main_arg0).trans key.2.1, (h c main_arg1).trans key.2.2⟩)
    (run_seq scopedRefs_eq scopedSems_eq defs main (fun _ => ops) main_eq (fun _ => ops_sub) m ρ)

end Cert.ReferenceIdeal.RunH

end
-- ==== Proof.RefIsG.lean ====
/-
  The reference computes `G`.

  Read one operation at a time, the reference forms per pixel the same quantities as `Scalar.lean` — the maximum of the
  21 channel values (a maximum-reduction started at `-∞`, then a maximum with `-∞` again), the exponentials of the
  shifted values and their sum, the log-softmax, and `log (p + ε)` in its quotient spelling — and then takes the two
  means as quotients by `1024²` and by `1024`.  With every logit a real number the quotient spelling of `log (p + ε)`
  is the difference spelling (`lpR_eq_lpK`); a quotient by `2^k` is the product with `2^-k` on every extended real; and
  the nonnegative finite factor `2^-20` crosses the sum over the columns.  What is left is re-indexing of finite sums.
-/
import proofs.«414774_j22763326668833_3_alg».proof.Proof.RefRead
import proofs.«414774_j22763326668833_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.ReferenceIdeal.RefValue

open Cert.ReferenceIdeal Cert.ReferenceIdeal.Gen Cert.ReferenceIdeal.ReadP Cert.Bayes Cert.LibFinite

/-! ## Indices by coordinates -/

/-- A rank-3 index whose leading axis has extent one is its two other coordinates. -/
theorem eq_ix3u (p : S1x1024x1024.Idx) : p = ix3 0 (p 1) (p 2) := by
  funext a
  match a with
  | ⟨0, _⟩ => exact Fin.ext (Nat.lt_one_iff.mp (p ⟨0, _⟩).isLt)
  | ⟨1, _⟩ => rfl
  | ⟨2, _⟩ => rfl

/-- The pixels of the image: a rank-3 index set with a leading unit axis is the product of its two coordinate ranges … -/
def idxEquiv3u : S1x1024x1024.Idx ≃ Fin 1024 × Fin 1024 where
  toFun p := (p 1, p 2)
  invFun q := ix3 0 q.1 q.2
  left_inv p := (eq_ix3u p).symm
  right_inv _ := rfl

/-- … so a sum over it is the double sum over rows and columns. -/
theorem sum_idx3u {M : Type*} [AddCommMonoid M] (f : S1x1024x1024.Idx → M) :
    ∑ p, f p = ∑ i : Fin 1024, ∑ j : Fin 1024, f (ix3 0 i j) := by
  rw [← Equiv.sum_comp idxEquiv3u.symm f, Fintype.sum_prod_type]
  rfl

/-- An index of the result row is its column. -/
theorem eq_ix2u (o : S1x1024.Idx) : o = ix2 0 (o 1) := by
  funext a
  match a with
  | ⟨0, _⟩ => exact Fin.ext (Nat.lt_one_iff.mp (o ⟨0, _⟩).isLt)
  | ⟨1, _⟩ => rfl

/-- The source index over pixel `(i, j)` with channel `k` inserted on the channel axis. -/
theorem lift_px (h : S1x21x1024x1024.Reduces [1] S1x1024x1024) (i j : Fin 1024) (k : Fin 21) :
    h.lift (ix3 0 i j) k = ix4 0 k i j := by
  funext a
  refine Fin.ext ?_
  match a with
  | ⟨0, _⟩ => rfl
  | ⟨1, _⟩ => rfl
  | ⟨2, _⟩ => rfl
  | ⟨3, _⟩ => rfl

/-! ## The maximum over the channels -/

/-- A maximum-reduction over the channel axis, started at `-∞`, is at pixel `(i, j)` the largest of the 21 channel values. -/
theorem reduce_max_at (lg : FVec Ideal S1x21x1024x1024 .f32) (init : S_.Idx → EReal)
    (hinit : ∀ q, init q = (⊥ : EReal)) (i j : Fin 1024) :
    Host.reduce (FloatOps.maximumf (F := Ideal) (φ := .f32)) lg init reducesTo_S1x21x1024x1024_S1x1024x1024_d1 h_S_ (ix3 0 i j)
      = mx (px lg i j) := by
  rw [Host.reduce_eq_fold_single (FloatOps.maximumf (F := Ideal) (φ := .f32)) lg init
    reducesTo_S1x21x1024x1024_S1x1024x1024_d1 (by decide) h_S_ (ix3 0 i j), hinit]
  have key : ∀ h : S1x21x1024x1024.Reduces [1] S1x1024x1024, lg ∘ h.lift (ix3 0 i j) = px lg i j :=
    fun h => funext fun k => congrArg lg (lift_px h i j k)
  rw [key]
  rfl

section Stages

variable (lg : FVec Ideal S1x21x1024x1024 .f32) (mk : IVec S1x1x1024x1024 32)

/-! ## The index maps of the broadcasts and the one-axis sums, at coordinates -/

theorem idx_v6_v7 (c : Fin 21) (i j : Fin 1024) : idx_main_v6 (idx_main_v7 (ix4 0 c i j)) = ix3 0 i j := by
  funext a; match a with | ⟨0, _⟩ => rfl | ⟨1, _⟩ => rfl | ⟨2, _⟩ => rfl
theorem idx_v11_v12 (c : Fin 21) (i j : Fin 1024) : idx_main_v11 (idx_main_v12 (ix4 0 c i j)) = ix3 0 i j := by
  funext a; match a with | ⟨0, _⟩ => rfl | ⟨1, _⟩ => rfl | ⟨2, _⟩ => rfl
theorem idx_c3_c4 (c : Fin 21) (i j : Fin 1024) : idx_main_call0_v3 (idx_main_call0_v4 (ix4 0 c i j)) = ix3 0 i j := by
  funext a; match a with | ⟨0, _⟩ => rfl | ⟨1, _⟩ => rfl | ⟨2, _⟩ => rfl
theorem idx_c8_c10 (c : Fin 21) (i j : Fin 1024) : idx_main_call0_v8 (idx_main_call0_v10 (ix4 0 c i j)) = ix3 0 i j := by
  funext a; match a with | ⟨0, _⟩ => rfl | ⟨1, _⟩ => rfl | ⟨2, _⟩ => rfl
theorem idx_v18 (c : Fin 21) (i j : Fin 1024) : idx_main_v18 (ix4 0 c i j) = ix4 0 0 i j := by
  funext a; match a with | ⟨0, _⟩ => rfl | ⟨1, _⟩ => rfl | ⟨2, _⟩ => rfl | ⟨3, _⟩ => rfl
theorem idx_v10 (i j : Fin 1024) (k : Fin 21) : idx_main_v10 (ix3 0 i j) k = ix4 0 k i j := by
  funext a; match a with | ⟨0, _⟩ => rfl | ⟨1, _⟩ => rfl | ⟨2, _⟩ => rfl | ⟨3, _⟩ => rfl
theorem idx_v20 (i j : Fin 1024) (k : Fin 21) : idx_main_v20 (ix3 0 i j) k = ix4 0 k i j := by
  funext a; match a with | ⟨0, _⟩ => rfl | ⟨1, _⟩ => rfl | ⟨2, _⟩ => rfl | ⟨3, _⟩ => rfl
theorem idx_c7 (i j : Fin 1024) (k : Fin 21) : idx_main_call0_v7 (ix3 0 i j) k = ix4 0 k i j := by
  funext a; match a with | ⟨0, _⟩ => rfl | ⟨1, _⟩ => rfl | ⟨2, _⟩ => rfl | ⟨3, _⟩ => rfl
theorem idx_v35 (i j : Fin 1024) (k : Fin 21) : idx_main_v35 (ix3 0 i j) k = ix4 0 k i j := by
  funext a; match a with | ⟨0, _⟩ => rfl | ⟨1, _⟩ => rfl | ⟨2, _⟩ => rfl | ⟨3, _⟩ => rfl
theorem idx_v36 (j i : Fin 1024) : idx_main_v36 (ix2 0 j) i = ix3 0 i j := by
  funext a; match a with | ⟨0, _⟩ => rfl | ⟨1, _⟩ => rfl | ⟨2, _⟩ => rfl

/-! ## The softmax's pieces at a pixel -/

theorem v3_at (i j : Fin 1024) : val_main_v3 (F := Ideal) lg (ix3 0 i j) = mx (px lg i j) :=
  reduce_max_at lg _ (fun _ => ofBits_neg_inf) i j

theorem v5_at (i j : Fin 1024) : val_main_v5 (F := Ideal) lg (ix3 0 i j) = mx (px lg i j) := by
  rw [val_main_v5_apply, val_main_v4_apply, val_main_cst_0_apply, v3_at]
  show max (Ideal.ofBits .f32 0xFF800000#32) _ = _
  rw [ofBits_neg_inf, max_eq_right bot_le]

theorem v9_at (c : Fin 21) (i j : Fin 1024) : val_main_v9 (F := Ideal) lg (ix4 0 c i j) = ex (px lg i j) c := by
  rw [val_main_v9_apply, val_main_v8_apply, val_main_v7_apply, val_main_v6_apply, idx_v6_v7, v5_at]
  rfl

theorem v10_at (i j : Fin 1024) : val_main_v10 (F := Ideal) lg (ix3 0 i j) = se (px lg i j) := by
  rw [val_main_v10_apply, val_main_cst_1_apply]
  show Ideal.ofBits .f32 0x00000000#32 + _ = _
  rw [ofBits_zero, zero_add]
  unfold se
  exact Finset.sum_congr rfl fun k _ => by rw [idx_v10, v9_at]

theorem v13_at (c : Fin 21) (i j : Fin 1024) :
    val_main_v13 (F := Ideal) lg (ix4 0 c i j) = Ideal.div (ex (px lg i j) c) (se (px lg i j)) := by
  rw [val_main_v13_apply, val_main_v12_apply, val_main_v11_apply, idx_v11_v12, v10_at, v9_at]
  rfl

theorem v16_at (c : Fin 21) (i j : Fin 1024) : val_main_v16 (F := Ideal) lg (ix4 0 c i j) = lpR eps (px lg i j) c := by
  rw [val_main_v16_apply, val_main_v15_apply, val_main_v14_apply, val_main_cst_2_apply, v13_at]
  rfl

end Stages

section Weights

variable (lg : FVec Ideal S1x21x1024x1024 .f32) (mk : IVec S1x1x1024x1024 32)

/-! ## The weight of a pixel -/

/-- The conversion of the one-bit word of `label ≠ 255` to a float is the weight of the label. -/
theorem uitofp_ne255 (b : BitVec 32) : FloatOps.uitofp (F := Ideal) .f32 (IntOp.cmpi .ne b 255#32) = wtOf b := by
  show (((BitVec.ofBool (b != 255#32)).toNat : ℝ) : EReal) = wtOf b
  unfold wtOf
  by_cases h : b = 255#32
  · rw [if_pos h, h]; simp
  · rw [if_neg h]
    have hb : (b != 255#32) = true := by simpa using h
    rw [hb]; simp

theorem v2_at (i j : Fin 1024) : val_main_v2 (F := Ideal) mk (ix4 0 0 i j) = wt mk i j := by
  rw [val_main_v2_apply, val_main_v1_apply, val_main_v0_apply, val_main_c_apply]
  exact uitofp_ne255 _

end Weights

section Rest

variable (lg : FVec Ideal S1x21x1024x1024 .f32) (mk : IVec S1x1x1024x1024 32)

/-! ## The aleatoric term -/

/-- With real logits the reference's `log (p + ε)` is the difference spelling. -/
theorem v16_at' (hfin : ∀ idx, IsFin (lg idx)) (c : Fin 21) (i j : Fin 1024) : val_main_v16 (F := Ideal) lg (ix4 0 c i j) = lpK eps (px lg i j) c := by
  rw [v16_at]
  exact lpR_eq_lpK isFin_eps eps_pos (x := px lg i j) (fun c => hfin (ix4 0 c i j)) c

theorem v19_at (hfin : ∀ idx, IsFin (lg idx)) (c : Fin 21) (i j : Fin 1024) :
    val_main_v19 (F := Ideal) lg mk (ix4 0 c i j) = (0 - wt mk i j) * lpK eps (px lg i j) c := by
  rw [val_main_v19_apply, val_main_v18_apply, val_main_v17_apply, idx_v18, v2_at, v16_at' lg hfin]
  show -(wt mk i j) * _ = _
  rw [zero_sub]

theorem v20_at (hfin : ∀ idx, IsFin (lg idx)) (i j : Fin 1024) : val_main_v20 (F := Ideal) lg mk (ix3 0 i j) = alePix eps (px lg i j) (wt mk i j) := by
  rw [val_main_v20_apply, val_main_cst_3_apply]
  show Ideal.ofBits .f32 0x00000000#32 + _ = _
  rw [ofBits_zero, zero_add]
  unfold alePix
  exact Finset.sum_congr rfl fun k _ => by rw [idx_v20, v19_at lg mk hfin]

/-- The image mean of the aleatoric term: the sum over every pixel, times `2^-20`. -/
theorem v23_at (hfin : ∀ idx, IsFin (lg idx)) (q : S1.Idx) :
    val_main_v23 (F := Ideal) lg mk q = (∑ i : Fin 1024, ∑ j : Fin 1024, alePix eps (px lg i j) (wt mk i j)) * k20 := by
  rw [val_main_v23_apply, val_main_v22_apply, val_main_cst_5_apply, val_main_v21_apply, val_main_cst_4_apply]
  show Ideal.div (Ideal.ofBits .f32 0x00000000#32 + _) (Ideal.ofBits .f32 0x49800000#32) = _
  rw [div_1048576, ofBits_zero, zero_add, sum_idx3u]
  exact congrArg (· * k20) (Finset.sum_congr rfl fun i _ => Finset.sum_congr rfl fun j _ => v20_at lg mk hfin i j)

theorem v40_at (hfin : ∀ idx, IsFin (lg idx)) (o : S1x1024.Idx) :
    val_main_v40 (F := Ideal) lg mk o = (∑ i : Fin 1024, ∑ j : Fin 1024, alePix eps (px lg i j) (wt mk i j)) * k20 := by
  rw [val_main_v40_apply, val_main_v39_apply, v23_at lg mk hfin]

/-! ## The log-softmax -/

theorem c2_at (i j : Fin 1024) : val_main_call0_v2 (F := Ideal) lg (ix3 0 i j) = mx (px lg i j) := by
  rw [val_main_call0_v2_apply, val_main_call0_v1_apply, val_main_call0_cst_0_apply]
  show max (Ideal.ofBits .f32 0xFF800000#32) (val_main_call0_v0 (F := Ideal) lg (ix3 0 i j)) = _
  rw [ofBits_neg_inf, max_eq_right bot_le]
  exact reduce_max_at lg _ (fun _ => ofBits_neg_inf) i j

theorem c5_at (c : Fin 21) (i j : Fin 1024) :
    val_main_call0_v5 (F := Ideal) lg (ix4 0 c i j) = px lg i j c - mx (px lg i j) := by
  rw [val_main_call0_v5_apply, val_main_call0_v4_apply, val_main_call0_v3_apply, idx_c3_c4, c2_at]
  rfl

theorem c7_at (i j : Fin 1024) : val_main_call0_v7 (F := Ideal) lg (ix3 0 i j) = se (px lg i j) := by
  rw [val_main_call0_v7_apply, val_main_call0_cst_1_apply]
  show Ideal.ofBits .f32 0x00000000#32 + _ = _
  rw [ofBits_zero, zero_add]
  unfold se
  refine Finset.sum_congr rfl fun k _ => ?_
  rw [idx_c7, val_main_call0_v6_apply, c5_at]
  rfl

theorem v24_at (c : Fin 21) (i j : Fin 1024) : val_main_v24 (F := Ideal) lg (ix4 0 c i j) = ls (px lg i j) c := by
  rw [val_main_v24_apply, val_main_call0_v10_apply, val_main_call0_v9_apply, val_main_call0_v8_apply, idx_c8_c10, c7_at, c5_at]
  rfl

/-! ## The epistemic term -/

/-- The select of `ℓ log ℓ` against `0` on the bit `ℓ ≠ 0 or ℓ ≠ ℓ`: on the extended reals the second disjunct never holds, and
    the select is `ℓ log ℓ` with the value `0` at `ℓ = 0`. -/
theorem xlogy_select (l : EReal) :
    Scalar.select (IntOp.ori (Ideal.cmp .une l 0) (Ideal.cmp .une l l)) (l * Ideal.log l) 0 = xlx l := by
  unfold xlx Scalar.select Ideal.cmp IntOp.ori
  by_cases h : l = 0
  · rw [if_pos h]; subst h; simp
  · rw [if_neg h]; simp [h]

theorem v32_at (c : Fin 21) (i j : Fin 1024) : val_main_v32 (F := Ideal) lg (ix4 0 c i j) = xlx (ls (px lg i j) c) := by
  rw [val_main_v32_apply, val_main_v28_apply, val_main_v26_apply, val_main_v27_apply, val_main_v30_apply, val_main_v29_apply,
    val_main_v31_apply, val_main_cst_7_apply, val_main_v25_apply, val_main_cst_6_apply, v24_at]
  show Scalar.select (IntOp.ori (Ideal.cmp .une _ (Ideal.ofBits .f32 0x00000000#32)) (Ideal.cmp .une _ _)) (_ * Ideal.log _)
    (Ideal.ofBits .f32 0x00000000#32) = _
  rw [ofBits_zero]
  exact xlogy_select _

theorem v34_at (hfin : ∀ idx, IsFin (lg idx)) (c : Fin 21) (i j : Fin 1024) : val_main_v34 (F := Ideal) lg (ix4 0 c i j) = kl eps (px lg i j) c := by
  rw [val_main_v34_apply, val_main_v33_apply, v32_at, v24_at, v16_at' lg hfin]
  rfl

theorem v35_at (hfin : ∀ idx, IsFin (lg idx)) (i j : Fin 1024) : val_main_v35 (F := Ideal) lg (ix3 0 i j) = epiPix eps (px lg i j) := by
  rw [val_main_v35_apply, val_main_cst_8_apply]
  show Ideal.ofBits .f32 0x00000000#32 + _ = _
  rw [ofBits_zero, zero_add]
  unfold epiPix
  exact Finset.sum_congr rfl fun k _ => by rw [idx_v35, v34_at lg hfin]

theorem v36_at (hfin : ∀ idx, IsFin (lg idx)) (j : Fin 1024) : val_main_v36 (F := Ideal) lg (ix2 0 j) = epiCol lg j := by
  rw [val_main_v36_apply, val_main_cst_9_apply]
  show Ideal.ofBits .f32 0x00000000#32 + _ = _
  rw [ofBits_zero, zero_add]
  unfold epiCol
  exact Finset.sum_congr rfl fun i _ => by rw [idx_v36, v35_at lg hfin]

/-- A column's mean divergence: the column sum times `2^-10`. -/
theorem v38_at (hfin : ∀ idx, IsFin (lg idx)) (j : Fin 1024) : val_main_v38 (F := Ideal) lg (ix2 0 j) = epiCol lg j * k10 := by
  rw [val_main_v38_apply, val_main_v37_apply, val_main_cst_10_apply, v36_at lg hfin]
  exact div_1024 _

end Rest

/-! ## The two sides meet -/

/-- With every logit a real number, the reference's result is `G` of the two arguments. -/
theorem ref_eq_G (lg : FVec Ideal S1x21x1024x1024 .f32) (mk : IVec S1x1x1024x1024 32) (hfin : ∀ idx, IsFin (lg idx)) :
    val_main_v41 (F := Ideal) lg mk = G lg mk := by
  funext o
  obtain ⟨j, rfl⟩ : ∃ j : Fin 1024, o = ix2 0 j := ⟨o 1, eq_ix2u o⟩
  rw [val_main_v41_apply, v40_at lg mk hfin, v38_at lg hfin]
  show _ + _ = (0 + ∑ o' : SOut.Idx, aleCol lg mk (o' 1) * k20) + epiCol lg j * k10
  refine congrArg (· + epiCol lg j * k10) ?_
  rw [zero_add, sum_idx2, Fin.sum_univ_one, Finset.sum_comm, sum_mul_of_nonneg _ _ k20_nonneg k20_ne_top]
  rfl

end Cert.ReferenceIdeal.RefValue

end
-- ==== Proof.PreFin.lean ====
/-
  What the precondition gives: every logit is a real number.

  The precondition is `all (|logits| < +∞)` written as one and-reduction over the whole array; where it is `1`, each
  entry's absolute value is below `+∞`, so the entry is neither infinity.
-/
import proofs.«414774_j22763326668833_3_alg».proof.Pre_finite_inputs
import proofs.«414774_j22763326668833_3_alg».proof.Proof.Gen.Pre_finite_inputs
import proofs.«414774_j22763326668833_3_alg».proof.Proof.LibFinite
import Idealize.ShloMosaic.Lib.ReduceAll
import Idealize.ShloMosaic.Lib.ValueIdx

noncomputable section

open Idealize.ShloMosaic

namespace Cert.Bayes

open Cert.LibFinite

/-- The scalar result has exactly one index. -/
local instance : Subsingleton Cert.Pre_finite_inputs.S_.Idx := ⟨fun a b => funext fun d => d.elim0⟩

/-- The word `0x7F800000` denotes `+∞`. -/
private theorem ofBits_inf : Ideal.ofBits .f32 0x7F800000#32 = (⊤ : EReal) := by
  simp [Ideal.ofBits, Ideal.ieee]

/-- A `1`-bit word built from a Boolean is `1` exactly when the Boolean is true. -/
private theorem ofBool_eq_one (b : Bool) : BitVec.ofBool b = 1#1 ↔ b = true := by cases b <;> decide

/-- An extended real whose absolute value `max x (-x)` is below `⊤` is finite: at either infinity the absolute value
    is `⊤` itself. -/
private theorem isFin_of_abs_lt_top (x : EReal) (h : max x (-x) < ⊤) : IsFin x := by
  induction x using EReal.rec with
  | bot => rw [EReal.neg_bot, max_eq_right bot_le] at h; exact absurd h (lt_irrefl _)
  | top => rw [max_eq_left le_top] at h; exact absurd h (lt_irrefl _)
  | coe r => exact isFin_coe r

/-- Where the precondition's predicate is all ones, every logit is finite. -/
theorem finite_of_pre (lg : FVec Ideal Cert.Pre_finite_inputs.S1x21x1024x1024 .f32) (mk : IVec Cert.Pre_finite_inputs.S1x1x1024x1024 32)
    (h : Cert.Pre_finite_inputs.fn (F := Ideal) lg mk = fun _ => 1#1) :
    ∀ idx : Cert.Pre_finite_inputs.S1x21x1024x1024.Idx, IsFin (lg idx) := by
  intro idx
  -- the predicate at its one index
  have e := congrFun h ValueIdx.ix0
  dsimp only [Cert.Pre_finite_inputs.fn] at e
  -- an and-reduction over every axis that is 1 had a 1 at every entry
  have e1 := Host.reduce_andi_all _ _ _ _ _ e idx
  -- the entry: |lg idx| < +∞
  have e2 : max (lg idx) (-(lg idx)) < (⊤ : EReal) := by
    have e3 : Ideal.cmp .olt (max (lg idx) (-(lg idx))) (Ideal.ofBits .f32 0x7F800000#32) = 1#1 := e1
    rw [ofBits_inf] at e3
    unfold Ideal.cmp at e3
    rw [ofBool_eq_one] at e3
    exact of_decide_eq_true e3
  exact isFin_of_abs_lt_top _ e2

end Cert.Bayes

end
-- ==== Proof.lean ====
/-
  A Bayesian segmentation loss: kernel against reference, over the extended reals.

  The inputs are logits `[1, 21, 1024, 1024]` and integer labels `[1, 1, 1024, 1024]`.  Per pixel, with `x` the 21 channel
  values, `μ = max x`, `a_c = exp (x_c - μ)`, `s = Σ a_c`, `ℓ_c = (x_c - μ) - log s` and `lp_c = log (a_c / s + ε)`, both
  programs form

      ale = Σ_c (-w) · lp_c          (w = 1 unless the pixel's label is 255)
      epi = Σ_c ( [ℓ_c = 0 ? 0 : ℓ_c · log ℓ_c] - ℓ_c · lp_c )

  and return, at column `j`, the mean of `ale` over the whole image plus the mean of `epi` down column `j`.

  The kernel walks the image in 2 × 4 tiles of 256 × 512 pixels, takes the channels one at a time, writes `lp_c` as
  `log (a_c + ε·s) - log s`, sums each tile down its rows into two accumulators carried over the four row tiles of a
  column tile, scales them by `2^-10` and `2^-20` at the last row tile, and lets the host add up the aleatoric row.
  The reference takes whole-array reductions and divides by `1024` and `1024²`.

  What joins them (Scalar.lean): for real logits `a_c` is a positive real and `s` a positive real, so
  `log (a_c / s + ε) = log (a_c + ε·s) - log s`; a quotient by `2^k` is the product with `2^-k` on every extended real;
  a nonnegative finite factor crosses any finite sum; the rest is regrouping of finite sums.  The precondition (every
  logit finite) is used exactly for the first of these.  Where `ℓ_c < 0` the logarithm `log ℓ_c` is taken of a negative
  number; both programs take it of the same number, so whatever value that is, it is the same on both sides.

  The modules: Scalar, Consts, Spec (the mathematics and the result `G` as one function of the arguments); KBody, KIdx,
  Blocks, Accum, AccumIdeal, KResult (the kernel's run ends at `G`); RefRead, RefRunH, RefIsG (the reference's run ends
  at `G`); PreFin (the precondition makes every logit real).
-/
import proofs.«414774_j22763326668833_3_alg».proof.Defs
import proofs.«414774_j22763326668833_3_alg».proof.Proof.Gen.Kernel
import proofs.«414774_j22763326668833_3_alg».proof.Proof.Gen.Kernel.Skeleton
import proofs.«414774_j22763326668833_3_alg».proof.Proof.Gen.Kernel.Launch
import proofs.«414774_j22763326668833_3_alg».proof.Proof.Gen.Kernel.Points
import proofs.«414774_j22763326668833_3_alg».proof.Proof.Gen.Kernel.Frame
import proofs.«414774_j22763326668833_3_alg».proof.Proof.Gen.KernelIdeal
import proofs.«414774_j22763326668833_3_alg».proof.Proof.Gen.KernelIdeal.Skeleton
import proofs.«414774_j22763326668833_3_alg».proof.Proof.Gen.KernelIdeal.Launch
import proofs.«414774_j22763326668833_3_alg».proof.Proof.Gen.KernelIdeal.Points
import proofs.«414774_j22763326668833_3_alg».proof.Proof.Gen.KernelIdeal.Frame
import proofs.«414774_j22763326668833_3_alg».proof.Proof.Gen.ReferenceIdeal
import proofs.«414774_j22763326668833_3_alg».proof.Proof.Gen.Pre_finite_inputs
import proofs.«414774_j22763326668833_3_alg».proof.Proof.KResult
import proofs.«414774_j22763326668833_3_alg».proof.Proof.RefRunH
import proofs.«414774_j22763326668833_3_alg».proof.Proof.RefIsG
import proofs.«414774_j22763326668833_3_alg».proof.Proof.PreFin
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote nothing. -/
theorem preserves : Cert.preserves_Kernel_KernelIdeal := trivial

/-- At the extended reals both programs end at `G` of arguments that agree: the kernel by its run, the reference by its
    run and, the logits being real by the precondition, the law between the two spellings of `log (p + ε)`. -/
theorem algebraic : Cert.algebraic_KernelIdeal_ReferenceIdeal := by
  intro m ρ m' ρ' hpre hagree
  refine ⟨fun c => Cert.Bayes.G (Cert.KernelIdeal.Result.lgOf m c) (Cert.KernelIdeal.Result.mkOf m c),
    Cert.KernelIdeal.Result.run m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2]
  exact Cert.ReferenceIdeal.RefValue.ref_eq_G _ _ (Cert.Bayes.finite_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
